-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S100000x2 : Shape := ⟨2, ![100000, 2]⟩
abbrev S512x384 : Shape := ⟨2, ![512, 384]⟩
abbrev S512 : Shape := ⟨1, ![512]⟩
abbrev S1152x512 : Shape := ⟨2, ![1152, 512]⟩
abbrev S1152 : Shape := ⟨1, ![1152]⟩
abbrev S512x512 : Shape := ⟨2, ![512, 512]⟩
abbrev S128x512 : Shape := ⟨2, ![128, 512]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x384 : S_.BroadcastsInDim S512x384 (![] : Fin 0 → Fin S512x384.rank)
  reducesTo_S512x384_S_d0_1 : S512x384.ReducesTo [0, 1] S_
  bcast_S_S512 : S_.BroadcastsInDim S512 (![] : Fin 0 → Fin S512.rank)
  reducesTo_S512_S_d0 : S512.ReducesTo [0] S_
  bcast_S_S1152x512 : S_.BroadcastsInDim S1152x512 (![] : Fin 0 → Fin S1152x512.rank)
  reducesTo_S1152x512_S_d0_1 : S1152x512.ReducesTo [0, 1] S_
  bcast_S_S1152 : S_.BroadcastsInDim S1152 (![] : Fin 0 → Fin S1152.rank)
  reducesTo_S1152_S_d0 : S1152.ReducesTo [0] S_
  bcast_S_S512x512 : S_.BroadcastsInDim S512x512 (![] : Fin 0 → Fin S512x512.rank)
  reducesTo_S512x512_S_d0_1 : S512x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512 .f32) (main_arg9 : FVec F S128x512 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S128x512 .f32 := Host.absf main_arg9
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S1152x512 .f32) (main_arg6 : FVec F S1152 .f32) (main_arg7 : FVec F S512x512 .f32) (main_arg8 : FVec F S512 .f32) (main_arg9 : FVec F S128x512 .f32) (main_arg10 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1152x512 .f32 := Host.absf main_arg5
  let main_cst_6 : FVec F S_ .f32 := constant S_ .f32 0x7F800000#32
  let main_v20 : FVec F S1152x512 .f32 := broadcastInDim S1152x512 ![] bcast_S_S1152x512 main_cst_6
  let main_v21 : IVec S1152x512 1 := cmpf .olt main_v19 main_v20
  let main_c_7 : IVec S_ 1 := constantI S_ 1 1#1
  let main_v22 : IVec S_ 1 := (fun x v => Host.reduce IntOp.andi x v reducesTo_S1152x512_S_d0_1 h_S_) main_v21 main_c_7
  let main_v23 : IVec S_ 1 := andi main_v18 main_v22
  let main_v24 : FVec F S1152 .f32 := Host.absf main_arg6
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S100000x128 .f32) (main_arg2 : IVec S100000x2 32) (main_arg3 : FVec F S512x384 .f32) (main_arg4 : FVec F S512 .f32) (main_arg5 : FVec F S1152x512 .f32) (main_arg6 : FVec F S1152 .f32) (main_arg7 : FVec F S512x512 .f32) (main_arg8 : FVec F S512 .f32) (main_arg9 : FVec F S128x512 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S512x384 .f32 := Host.absf main_arg3
  let main_cst_2 : FVec F S_ .f32 := constant S_ .f32 0x7F800000#32
  let main_v10 : FVec F S512x384 .f32 := broadcastInDim S512x384 ![] bcast_S_S512x384 main_cst_2
  let main_v11 : IVec S512x384 1 := cmpf .olt main_v9 main_v10
  let main_c_3 : IVec S_ 1 := constantI S_ 1 1#1
  let main_v12 : IVec S_ 1 := (fun x v => Host.reduce IntOp.andi x v reducesTo_S512x384_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S100000x128 : Shape := ⟨2, ![100000, 128]⟩
abbrev S100000x2 : Shape := ⟨2, ![100000, 2]⟩
abbrev S512x384 : Shape := ⟨2, ![512, 384]⟩
abbrev S512 : Shape := ⟨1, ![512]⟩
abbrev S1152x512 : Shape := ⟨2, ![1152, 512]⟩
abbrev S1152 : Shape := ⟨1, ![1152]⟩
abbrev S512x512 : Shape := ⟨2, ![512, 512]⟩
abbrev S128x512 : Shape := ⟨2, ![128, 512]⟩
abbrev S128 : Shape := ⟨1, ![128]⟩
abbrev S100000x1 : Shape := ⟨2, ![100000, 1]⟩
abbrev S100000 : Shape := ⟨1, ![100000]⟩
abbrev S_ : Shape := ⟨0, ![]⟩
abbrev S100000x384 : Shape := ⟨2, ![100000, 384]⟩
abbrev S384x512 : Shape := ⟨2, ![384, 512]⟩
abbrev S512x1152 : Shape := ⟨2, ![512, 1152]⟩
abbrev S1x512 : Shape := ⟨2, ![1, 512]⟩
abbrev S1x1152 : Shape := ⟨2, ![1, 1152]⟩
abbrev S100000x512 : Shape := ⟨2, ![100000, 512]⟩
abbrev S1000x384 : Shape := ⟨2, ![1000, 384]⟩
abbrev S1000x512 : Shape := ⟨2, ![1000, 512]⟩
abbrev S1000x128 : Shape := ⟨2, ![1000, 128]⟩
abbrev S1000x1152 : Shape := ⟨2, ![1000, 1152]⟩
abbrev S50000x512 : Shape := ⟨2, ![50000, 512]⟩
abbrev S50000 : Shape := ⟨1, ![50000]⟩
abbrev S50000x1 : Shape := ⟨2, ![50000, 1]⟩
abbrev S512x128 : Shape := ⟨2, ![512, 128]⟩
abbrev S1x128 : Shape := ⟨2, ![1, 128]⟩

abbrev nBuf : Space → Nat
  | .hbm => 102
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S100000x128, .f32⟩
  | .hbm, ⟨2, _⟩ => ⟨S100000x2, .i32⟩
  | .hbm, ⟨3, _⟩ => ⟨S512x384, .f32⟩
  | .hbm, ⟨4, _⟩ => ⟨S512, .f32⟩
  | .hbm, ⟨5, _⟩ => ⟨S1152x512, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S128x512, .f32⟩
  | .hbm, ⟨10, _⟩ => ⟨S128, .f32⟩
  | .hbm, ⟨11, _⟩ => ⟨S100000x1, .i32⟩
  | .hbm, ⟨12, _⟩ => ⟨S100000, .i32⟩
  | .hbm, ⟨13, _⟩ => ⟨S100000x1, .i32⟩
  | .hbm, ⟨14, _⟩ => ⟨S100000, .i32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x128, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x128, .f32⟩
  | .hbm, ⟨33, _⟩ => ⟨S100000x384, .f32⟩
  | .hbm, ⟨34, _⟩ => ⟨S100000x384, .bf16⟩
  | .hbm, ⟨35, _⟩ => ⟨S512x384, .bf16⟩
  | .hbm, ⟨36, _⟩ => ⟨S384x512, .bf16⟩
  | .hbm, ⟨37, _⟩ => ⟨S1152x512, .bf16⟩
  | .hbm, ⟨38, _⟩ => ⟨S512x1152, .bf16⟩
  | .hbm, ⟨39, _⟩ => ⟨S1x512, .f32⟩
  | .hbm, ⟨40, _⟩ => ⟨S1x1152, .f32⟩
  | .hbm, ⟨41, _⟩ => ⟨S100000x512, .f32⟩
  | .hbm, ⟨42, _⟩ => ⟨S100000x128, .f32⟩
  | .hbm, ⟨43, _⟩ => ⟨S100000x512, .f32⟩
  | .hbm, ⟨44, _⟩ => ⟨S_, .f32⟩
  | .hbm, ⟨45, _⟩ => ⟨S50000x512, .f32⟩
  | .hbm, ⟨46, _⟩ => ⟨S_, .i32⟩
  | .hbm, ⟨47, _⟩ => ⟨S100000, .i32⟩
  | .hbm, ⟨48, _⟩ => ⟨S100000, .i1⟩
  | .hbm, ⟨49, _⟩ => ⟨S_, .i32⟩
  | .hbm, ⟨50, _⟩ => ⟨S100000, .i32⟩
  | .hbm, ⟨51, _⟩ => ⟨S100000, .i32⟩
  | .hbm, ⟨52, _⟩ => ⟨S100000, .i32⟩
  | .hbm, ⟨53, _⟩ => ⟨S100000x1, .i32⟩
  | .hbm, ⟨54, _⟩ => ⟨S50000x512, .f32⟩
  | .hbm, ⟨55, _⟩ => ⟨S_, .i32⟩
  | .hbm, ⟨56, _⟩ => ⟨S100000, .i32⟩
  | .hbm, ⟨57, _⟩ => ⟨S100000, .i1⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S100000, .i32⟩
  | .hbm, ⟨62, _⟩ => ⟨S100000x1, .i32⟩
  | .hbm, ⟨63, _⟩ => ⟨S50000x512, .f32⟩
  | .hbm, ⟨64, _⟩ => ⟨S_, .f32⟩
  | .hbm, ⟨65, _⟩ => ⟨S50000, .f32⟩
  | .hbm, ⟨66, _⟩ => ⟨S_, .i32⟩
  | .hbm, ⟨67, _⟩ => ⟨S100000, .i32⟩
  | .hbm, ⟨68, _⟩ => ⟨S100000, .i1⟩
  | .hbm, ⟨69, _⟩ => ⟨S_, .i32⟩
  | .hbm, ⟨70, _⟩ => ⟨S100000, .i32⟩
  | .hbm, ⟨71, _⟩ => ⟨S100000, .i32⟩
  | .hbm, ⟨72, _⟩ => ⟨S100000, .i32⟩
  | .hbm, ⟨73, _⟩ => ⟨S100000x1, .i32⟩
  | .hbm, ⟨74, _⟩ => ⟨S_, .f32⟩
  | .hbm, ⟨75, _⟩ => ⟨S100000, .f32⟩
  | .hbm, ⟨76, _⟩ => ⟨S50000, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S_, .f32⟩
  | .hbm, ⟨86, _⟩ => ⟨S100000, .f32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x512, .f32⟩
  | .hbm, ⟨93, _⟩ => ⟨S50000x512, .f32⟩
  | .hbm, ⟨94, _⟩ => ⟨S50000x512, .bf16⟩
  | .hbm, ⟨95, _⟩ => ⟨S512x512, .bf16⟩
  | .hbm, ⟨96, _⟩ => ⟨S512x512, .bf16⟩
  | .hbm, ⟨97, _⟩ => ⟨S128x512, .bf16⟩
  | .hbm, ⟨98, _⟩ => ⟨S512x128, .bf16⟩
  | .hbm, ⟨99, _⟩ => ⟨S1x512, .f32⟩
  | .hbm, ⟨100, _⟩ => ⟨S1x128, .f32⟩
  | .hbm, ⟨101, _⟩ => ⟨S50000x128, .f32⟩
  | .local _ .vmem, ⟨0, _⟩ => ⟨S1000x384, .bf16⟩
  | .local _ .vmem, ⟨1, _⟩ => ⟨S1000x384, .bf16⟩
  | .local _ .vmem, ⟨2, _⟩ => ⟨S384x512, .bf16⟩
  | .local _ .vmem, ⟨3, _⟩ => ⟨S1x512, .f32⟩
  | .local _ .vmem, ⟨4, _⟩ => ⟨S512x1152, .bf16⟩
  | .local _ .vmem, ⟨5, _⟩ => ⟨S1x1152, .f32⟩
  | .local _ .vmem, ⟨6, _⟩ => ⟨S1000x512, .f32⟩
  | .local _ .vmem, ⟨7, _⟩ => ⟨S1000x512, .f32⟩
  | .local _ .vmem, ⟨8, _⟩ => ⟨S1000x128, .f32⟩
  | .local _ .vmem, ⟨9, _⟩ => ⟨S1000x128, .f32⟩
  | .local _ .vmem, ⟨10, _⟩ => ⟨S1000x512, .f32⟩
  | .local _ .vmem, ⟨11, _⟩ => ⟨S1000x512, .f32⟩
  | .local _ .vmem, ⟨12, _⟩ => ⟨S1000x512, .bf16⟩
  | .local _ .vmem, ⟨13, _⟩ => ⟨S1000x512, .bf16⟩
  | .local _ .vmem, ⟨14, _⟩ => ⟨S512x512, .bf16⟩
  | .local _ .vmem, ⟨15, _⟩ => ⟨S1x512, .f32⟩
  | .local _ .vmem, ⟨16, _⟩ => ⟨S512x128, .bf16⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_cst : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_cst_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  bitsLt_bf16_f32 : FTy.bits .bf16 < FTy.bits .f32
  transposes_S512x384_S384x512_1_0 : S512x384.Transposes [1, 0] S384x512
  transposes_S1152x512_S512x1152_1_0 : S1152x512.Transposes [1, 0] S512x1152
  shapeCasts_S512_S1x512 : S512.ShapeCasts S1x512
  shapeCasts_S1152_S1x1152 : S1152.ShapeCasts S1x1152
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1000x1152 : S1x1152.Broadcasts S1000x1152
  slices_S1000x1152_o0_0_S1000x512 : S1000x1152.Slices ![0, 0] S1000x512
  inb_S1000x512_S1000x512_0_0 : ∀ a, (![0, 0] : Fin 2 → Nat) a + S1000x512.size a ≤ S1000x512.size a
  h_S1000x512 : 0 < S1000x512.numel
  slices_S1000x1152_o0_512_S1000x128 : S1000x1152.Slices ![0, 512] S1000x128
  inb_S1000x128_S1000x128_0_0 : ∀ a, (![0, 0] : Fin 2 → Nat) a + S1000x128.size a ≤ S1000x128.size a
  h_S1000x128 : 0 < S1000x128.numel
  slices_S1000x1152_o0_640_S1000x512 : S1000x1152.Slices ![0, 640] S1000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  transposes_S128x512_S512x128_1_0 : S128x512.Transposes [1, 0] S512x128
  shapeCasts_S128_S1x128 : S128.ShapeCasts S1x128
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  gather_S50000x128_S100000x1_S100000x128_1_0_n_n_0_1_1128_wf : GatherDims.WF S50000x128 S100000x1 S100000x128 [1] [0] [] [0] [] 1 ![1, 128]
  dot_S1000x384_S384x512_S1000x512_1_0_0_1_n_n_wf : DotDims.WF S1000x384 S384x512 S1000x512 [1] [0] [0] [1] [] []
  dot_S1000x512_S512x1152_S1000x1152_1_0_0_1_n_n_wf : DotDims.WF S1000x512 S512x1152 S1000x1152 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  dot_S1000x512_S512x512_S1000x512_1_0_0_1_n_n_wf : DotDims.WF S1000x512 S512x512 S1000x512 [1] [0] [0] [1] [] []
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x384.size a ≤ S100000x384.size a
  hwx0_0 : ∀ i : grid0.Coords, EltTy.bits .bf16 = 32 ∨ (Rect.block (s := S100000x384) S1000x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1152.size a ≤ S512x1152.size a
  hwx0_3 : ∀ i : grid0.Coords, EltTy.bits .bf16 = 32 ∨ (Rect.block (s := S512x1152) S512x1152.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1152.size a ≤ S1x1152.size a
  hwx0_4 : ∀ i : grid0.Coords, EltTy.bits .f32 = 32 ∨ (Rect.block (s := S1x1152) S1x1152.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S100000x512.size a
  hwx0_5 : ∀ i : grid0.Coords, EltTy.bits .f32 = 32 ∨ (Rect.block (s := S100000x512) S1000x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S100000x128.size a
  hwx0_6 : ∀ i : grid0.Coords, EltTy.bits .f32 = 32 ∨ (Rect.block (s := S100000x128) S1000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x512.size a ≤ S100000x512.size a
  hwx0_7 : ∀ i : grid0.Coords, EltTy.bits .f32 = 32 ∨ (Rect.block (s := S100000x512) S1000x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .bf16 = 32 ∨ (Rect.block (s := S50000x512) S1000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S1000x384_S384x512_S1000x512_1_0_0_1_n_n : DotDims S1000x384 S384x512 S1000x512 where
  lhsContracting := [1]
  rhsContracting := [0]
  lhsNonContracting := [0]
  rhsNonContracting := [1]
  lhsBatch := []
  rhsBatch := []
  wf := dot_S1000x384_S384x512_S1000x512_1_0_0_1_n_n_wf
def dot_S1000x512_S512x1152_S1000x1152_1_0_0_1_n_n : DotDims S1000x512 S512x1152 S1000x1152 where
  lhsContracting := [1]
  rhsContracting := [0]
  lhsNonContracting := [0]
  rhsNonContracting := [1]
  lhsBatch := []
  rhsBatch := []
  wf := dot_S1000x512_S512x1152_S1000x1152_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_v19) S1000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x1152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1152.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S1000x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v64) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S100000x2 : Shape := ⟨2, ![100000, 2]⟩
abbrev S512x384 : Shape := ⟨2, ![512, 384]⟩
abbrev S512 : Shape := ⟨1, ![512]⟩
abbrev S1152x512 : Shape := ⟨2, ![1152, 512]⟩
abbrev S1152 : Shape := ⟨1, ![1152]⟩
abbrev S512x512 : Shape := ⟨2, ![512, 512]⟩
abbrev S128x512 : Shape := ⟨2, ![128, 512]⟩
abbrev S128 : Shape := ⟨1, ![128]⟩
abbrev S100000x1 : Shape := ⟨2, ![100000, 1]⟩
abbrev S100000 : Shape := ⟨1, ![100000]⟩
abbrev S_ : Shape := ⟨0, ![]⟩
abbrev S100000x384 : Shape := ⟨2, ![100000, 384]⟩
abbrev S384x512 : Shape := ⟨2, ![384, 512]⟩
abbrev S100000x512 : Shape := ⟨2, ![100000, 512]⟩
abbrev S1x512 : Shape := ⟨2, ![1, 512]⟩
abbrev S512x1152 : Shape := ⟨2, ![512, 1152]⟩
abbrev S100000x1152 : Shape := ⟨2, ![100000, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S512x128 : Shape := ⟨2, ![512, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S100000x128, .f32⟩
  | .hbm, ⟨2, _⟩ => ⟨S100000x2, .i32⟩
  | .hbm, ⟨3, _⟩ => ⟨S512x384, .f32⟩
  | .hbm, ⟨4, _⟩ => ⟨S512, .f32⟩
  | .hbm, ⟨5, _⟩ => ⟨S1152x512, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S128x512, .f32⟩
  | .hbm, ⟨10, _⟩ => ⟨S128, .f32⟩
  | .hbm, ⟨11, _⟩ => ⟨S100000x1, .i32⟩
  | .hbm, ⟨12, _⟩ => ⟨S100000, .i32⟩
  | .hbm, ⟨13, _⟩ => ⟨S100000x1, .i32⟩
  | .hbm, ⟨14, _⟩ => ⟨S100000, .i32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x128, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x128, .f32⟩
  | .hbm, ⟨33, _⟩ => ⟨S100000x384, .f32⟩
  | .hbm, ⟨34, _⟩ => ⟨S384x512, .f32⟩
  | .hbm, ⟨35, _⟩ => ⟨S100000x512, .f32⟩
  | .hbm, ⟨36, _⟩ => ⟨S1x512, .f32⟩
  | .hbm, ⟨37, _⟩ => ⟨S100000x512, .f32⟩
  | .hbm, ⟨38, _⟩ => ⟨S100000x512, .f32⟩
  | .hbm, ⟨39, _⟩ => ⟨S_, .f32⟩
  | .hbm, ⟨40, _⟩ => ⟨S100000x512, .f32⟩
  | .hbm, ⟨41, _⟩ => ⟨S100000x512, .f32⟩
  | .hbm, ⟨42, _⟩ => ⟨S512x1152, .f32⟩
  | .hbm, ⟨43, _⟩ => ⟨S100000x1152, .f32⟩
  | .hbm, ⟨44, _⟩ => ⟨S1x1152, .f32⟩
  | .hbm, ⟨45, _⟩ => ⟨S100000x1152, .f32⟩
  | .hbm, ⟨46, _⟩ => ⟨S100000x1152, .f32⟩
  | .hbm, ⟨47, _⟩ => ⟨S_, .f32⟩
  | .hbm, ⟨48, _⟩ => ⟨S100000x1152, .f32⟩
  | .hbm, ⟨49, _⟩ => ⟨S100000x1152, .f32⟩
  | .hbm, ⟨50, _⟩ => ⟨S100000x512, .f32⟩
  | .hbm, ⟨51, _⟩ => ⟨S100000x128, .f32⟩
  | .hbm, ⟨52, _⟩ => ⟨S100000x512, .f32⟩
  | .hbm, ⟨53, _⟩ => ⟨S_, .f32⟩
  | .hbm, ⟨54, _⟩ => ⟨S50000x512, .f32⟩
  | .hbm, ⟨55, _⟩ => ⟨S_, .i32⟩
  | .hbm, ⟨56, _⟩ => ⟨S100000, .i32⟩
  | .hbm, ⟨57, _⟩ => ⟨S100000, .i1⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S100000, .i32⟩
  | .hbm, ⟨62, _⟩ => ⟨S100000x1, .i32⟩
  | .hbm, ⟨63, _⟩ => ⟨S50000x512, .f32⟩
  | .hbm, ⟨64, _⟩ => ⟨S_, .i32⟩
  | .hbm, ⟨65, _⟩ => ⟨S100000, .i32⟩
  | .hbm, ⟨66, _⟩ => ⟨S100000, .i1⟩
  | .hbm, ⟨67, _⟩ => ⟨S_, .i32⟩
  | .hbm, ⟨68, _⟩ => ⟨S100000, .i32⟩
  | .hbm, ⟨69, _⟩ => ⟨S100000, .i32⟩
  | .hbm, ⟨70, _⟩ => ⟨S100000, .i32⟩
  | .hbm, ⟨71, _⟩ => ⟨S100000x1, .i32⟩
  | .hbm, ⟨72, _⟩ => ⟨S50000x512, .f32⟩
  | .hbm, ⟨73, _⟩ => ⟨S_, .f32⟩
  | .hbm, ⟨74, _⟩ => ⟨S50000, .f32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S100000, .i32⟩
  | .hbm, ⟨82, _⟩ => ⟨S100000x1, .i32⟩
  | .hbm, ⟨83, _⟩ => ⟨S_, .f32⟩
  | .hbm, ⟨84, _⟩ => ⟨S100000, .f32⟩
  | .hbm, ⟨85, _⟩ => ⟨S50000, .f32⟩
  | .hbm, ⟨86, _⟩ => ⟨S_, .i32⟩
  | .hbm, ⟨87, _⟩ => ⟨S100000, .i32⟩
  | .hbm, ⟨88, _⟩ => ⟨S100000, .i1⟩
  | .hbm, ⟨89, _⟩ => ⟨S_, .i32⟩
  | .hbm, ⟨90, _⟩ => ⟨S100000, .i32⟩
  | .hbm, ⟨91, _⟩ => ⟨S100000, .i32⟩
  | .hbm, ⟨92, _⟩ => ⟨S100000, .i32⟩
  | .hbm, ⟨93, _⟩ => ⟨S100000x1, .i32⟩
  | .hbm, ⟨94, _⟩ => ⟨S_, .f32⟩
  | .hbm, ⟨95, _⟩ => ⟨S100000, .f32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x512, .f32⟩
  | .hbm, ⟨102, _⟩ => ⟨S50000x512, .f32⟩
  | .hbm, ⟨103, _⟩ => ⟨S512x512, .f32⟩
  | .hbm, ⟨104, _⟩ => ⟨S50000x512, .f32⟩
  | .hbm, ⟨105, _⟩ => ⟨S1x512, .f32⟩
  | .hbm, ⟨106, _⟩ => ⟨S50000x512, .f32⟩
  | .hbm, ⟨107, _⟩ => ⟨S50000x512, .f32⟩
  | .hbm, ⟨108, _⟩ => ⟨S_, .f32⟩
  | .hbm, ⟨109, _⟩ => ⟨S50000x512, .f32⟩
  | .hbm, ⟨110, _⟩ => ⟨S50000x512, .f32⟩
  | .hbm, ⟨111, _⟩ => ⟨S512x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x128, .f32⟩
  | .hbm, ⟨118, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call2_cst : Ref sig .tc := ⟨.hbm, 108, rfl⟩
abbrev main_call2_v0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call3_cst : Ref sig .tc := ⟨.hbm, 116, rfl⟩
abbrev main_call3_v0 : Ref sig .tc := ⟨.hbm, 117, rfl⟩
abbrev main_v82 : Ref sig .tc := ⟨.hbm, 118, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  transposes_S512x384_S384x512_1_0 : S512x384.Transposes [1, 0] S384x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  transposes_S1152x512_S512x1152_1_0 : S1152x512.Transposes [1, 0] S512x1152
  bcast_S1152_S1x1152_1 : S1152.BroadcastsInDim S1x1152 (![1] : Fin 1 → Fin S1x1152.rank)
  bcast_S1x1152_S100000x1152_0_1 : S1x1152.BroadcastsInDim S100000x1152 (![0, 1] : Fin 2 → Fin S100000x1152.rank)
  bcast_S_S100000x1152 : S_.BroadcastsInDim S100000x1152 (![] : Fin 0 → Fin S100000x1152.rank)
  slices_S100000x1152_S100000x512_0_0 : S100000x1152.Slices ![0, 0] S100000x512
  slices_S100000x1152_S100000x128_0_512 : S100000x1152.Slices ![0, 512] S100000x128
  slices_S100000x1152_S100000x512_0_640 : S100000x1152.Slices ![0, 640] S100000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  bcast_S1x512_S50000x512_0_1 : S1x512.BroadcastsInDim S50000x512 (![0, 1] : Fin 2 → Fin S50000x512.rank)
  transposes_S128x512_S512x128_1_0 : S128x512.Transposes [1, 0] S512x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S100000x1_S100000x128_1_0_n_n_0_1_1128_wf : GatherDims.WF S50000x128 S100000x1 S100000x128 [1] [0] [] [0] [] 1 ![1, 128]
  dot_S100000x384_S384x512_S100000x512_1_0_0_1_n_n_wf : DotDims.WF S100000x384 S384x512 S100000x512 [1] [0] [0] [1] [] []
  dot_S100000x512_S512x1152_S100000x1152_1_0_0_1_n_n_wf : DotDims.WF S100000x512 S512x1152 S100000x1152 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  dot_S50000x512_S512x512_S50000x512_1_0_0_1_n_n_wf : DotDims.WF S50000x512 S512x512 S50000x512 [1] [0] [0] [1] [] []
  dot_S50000x512_S512x128_S50000x128_1_0_0_1_n_n_wf : DotDims.WF S50000x512 S512x128 S50000x128 [1] [0] [0] [1] [] []

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x384_S384x512_S100000x512_1_0_0_1_n_n : DotDims S100000x384 S384x512 S100000x512 where
  lhsContracting := [1]
  rhsContracting := [0]
  lhsNonContracting := [0]
  rhsNonContracting := [1]
  lhsBatch := []
  rhsBatch := []
  wf := dot_S100000x384_S384x512_S100000x512_1_0_0_1_n_n_wf
def dot_S100000x512_S512x1152_S100000x1152_1_0_0_1_n_n : DotDims S100000x512 S512x1152 S100000x1152 where
  lhsContracting := [1]
  rhsContracting := [0]
  lhsNonContracting := [0]
  rhsNonContracting := [1]
  lhsBatch := []
  rhsBatch := []
  wf := dot_S100000x512_S512x1152_S100000x1152_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.Kernel.Mlp1Body.lean ====
/-
  The first dense stage (two matrix products with bias and a clamp at zero, row block by row block) as one
  grid of 100 points: what one point leaves in the three output windows' buffers, as a function of the five
  input blocks it is handed, and the proof that the printed body does exactly that whatever the buffers held.
  Everything is stated at a parameter `V`, the contents of the core's arrays when the call is entered, and at any
  float instance.
-/
import proofs.«112442_j455266533448_1_alg».proof.Proof.Gen.Kernel.Launch
import proofs.«112442_j455266533448_1_alg».proof.Proof.Gen.Kernel.Skeleton
import proofs.«112442_j455266533448_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.Kernel.Mlp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at grid point `t`: the rows `1000 t … 1000 t + 999` of a row-blocked array, the whole
    array for the weights and biases. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block when the body starts, whether the block was fetched at this point or
    is still there from the first one (the weights and biases: their block index never moves). -/

theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## What the body stores -/

abbrev rX : Rect S1000x384 := Rect.unit (s := S1000x384) ![0, 0] S1000x384.size inb_S1000x384_S1000x384_0_0
abbrev rWa : Rect S384x512 := Rect.unit (s := S384x512) ![0, 0] S384x512.size inb_S384x512_S384x512_0_0
abbrev rBa : Rect S1x512 := Rect.unit (s := S1x512) ![0, 0] S1x512.size inb_S1x512_S1x512_0_0
abbrev rWb : Rect S512x1152 := Rect.unit (s := S512x1152) ![0, 0] S512x1152.size inb_S512x1152_S512x1152_0_0
abbrev rBb : Rect S1x1152 := Rect.unit (s := S1x1152) ![0, 0] S1x1152.size inb_S1x1152_S1x1152_0_0
abbrev rS : Rect S1000x512 := Rect.unit (s := S1000x512) ![0, 0] S1000x512.size inb_S1000x512_S1000x512_0_0
abbrev rP : Rect S1000x128 := Rect.unit (s := S1000x128) ![0, 0] S1000x128.size inb_S1000x128_S1000x128_0_0

/-- The subject columns `0 … 511` of the second layer's clamped output, as the one store into window 5 leaves them. -/
def outS (x : Vec F S1000x384 .bf16) (wa : Vec F S384x512 .bf16) (ba : Vec F S1x512 .f32) (wb : Vec F S512x1152 .bf16) (bb : Vec F S1x1152 .f32) : Vec F S1000x512 .f32 :=
  View.canon [⟨rS, k0_pay2 (View.ld x rX) (View.ld wa rWa) (View.ld ba rBa) (View.ld wb rWb) (View.ld bb rBb)⟩]
/-- The predicate columns `512 … 639`, window 6. -/
def outP (x : Vec F S1000x384 .bf16) (wa : Vec F S384x512 .bf16) (ba : Vec F S1x512 .f32) (wb : Vec F S512x1152 .bf16) (bb : Vec F S1x1152 .f32) : Vec F S1000x128 .f32 :=
  View.canon [⟨rP, k0_pay3 (View.ld x rX) (View.ld wa rWa) (View.ld ba rBa) (View.ld wb rWb) (View.ld bb rBb)⟩]
/-- The object columns `640 … 1151`, window 7. -/
def outO (x : Vec F S1000x384 .bf16) (wa : Vec F S384x512 .bf16) (ba : Vec F S1x512 .f32) (wb : Vec F S512x1152 .bf16) (bb : Vec F S1x1152 .f32) : Vec F S1000x512 .f32 :=
  View.canon [⟨rS, k0_pay4 (View.ld x rX) (View.ld wa rWa) (View.ld ba rBa) (View.ld wb rWb) (View.ld bb rBb)⟩]

/-- One store through the whole-buffer rectangle covers the buffer. -/
theorem coverS (p : Vec F S1000x512 .f32) (y : S1000x512.Idx) :
    ∃ pc ∈ ([⟨rS, p⟩] : List (View.Piece (Elt F) S1000x512 .f32)), y ∈ pc.1.set :=
  View.cover_of_tiled [⟨rS, p⟩] S1000x512.size (by rfl) y
theorem coverP (p : Vec F S1000x128 .f32) (y : S1000x128.Idx) :
    ∃ pc ∈ ([⟨rP, p⟩] : List (View.Piece (Elt F) S1000x128 .f32)), y ∈ pc.1.set :=
  View.cover_of_tiled [⟨rP, p⟩] S1000x128.size (by rfl) y

/-! ## The body's triple -/

set_option maxHeartbeats 2000000 in
/-- On whole staging buffers, the five inputs' at known contents and the three outputs' at anything, the body runs
    to its end leaving the inputs as they were and each output at `outS` / `outP` / `outO` of the inputs (the old
    contents of an output, which the body reads before it overwrites them, reach nothing it stores). -/
theorem triple (c : Dev nD) (E : Set ℕ) (i : grid0.Coords)
    (arg1 : Memref sig .tc .vmem S1000x384 .bf16) (harg1 : arg1.IsWhole) (arg2 : Memref sig .tc .vmem S384x512 .bf16) (harg2 : arg2.IsWhole)
    (arg3 : Memref sig .tc .vmem S1x512 .f32) (harg3 : arg3.IsWhole) (arg4 : Memref sig .tc .vmem S512x1152 .bf16) (harg4 : arg4.IsWhole)
    (arg5 : Memref sig .tc .vmem S1x1152 .f32) (harg5 : arg5.IsWhole) (arg6 : Memref sig .tc .vmem S1000x512 .f32) (harg6 : arg6.IsWhole)
    (arg7 : Memref sig .tc .vmem S1000x128 .f32) (harg7 : arg7.IsWhole) (arg8 : Memref sig .tc .vmem S1000x512 .f32) (harg8 : arg8.IsWhole)
    (x : Vec F S1000x384 .bf16) (wa : Vec F S384x512 .bf16) (ba : Vec F S1x512 .f32) (wb : Vec F S512x1152 .bf16) (bb : Vec F S1x1152 .f32)
    (K : PUnit → sProp 𝕄) :
    iprop(owns (c : Thread nD τ) arg1 fullShare x ∗ owns (c : Thread nD τ) arg2 fullShare wa ∗ owns (c : Thread nD τ) arg3 fullShare ba
        ∗ owns (c : Thread nD τ) arg4 fullShare wb ∗ owns (c : Thread nD τ) arg5 fullShare bb
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare wa ∗ owns (c : Thread nD τ) arg3 fullShare ba
            ∗ owns (c : Thread nD τ) arg4 fullShare wb ∗ owns (c : Thread nD τ) arg5 fullShare bb
            ∗ owns (c : Thread nD τ) arg6 fullShare (outS x wa ba wb bb) ∗ owns (c : Thread nD τ) arg7 fullShare (outP x wa ba wb bb)
            ∗ owns (c : Thread nD τ) arg8 fullShare (outO x wa ba wb bb)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS _)
  isplitl [H6]
  · iexists _; isplitr
    swap; · iexact H6
    ipureintro
    exact View.read_writes_eq_canon _ _ _ (coverP _)
  iexists _; isplitr
  swap; · iexact H7
  ipureintro
  exact View.read_writes_eq_canon _ _ _ (coverS _)

/-! ## The proof data of the call -/

/-- The arrays as the call finds them; after the body at point `t` every input buffer still at its block and the
    three output buffers at what the body stores; the call keeps nothing of its own between points. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outS (blk V c 0 t) (blk V c 1 t) (blk V c 2 t) (blk V c 3 t) (blk V c 4 t)
    | ⟨6, _⟩ => outP (blk V c 0 t) (blk V c 1 t) (blk V c 2 t) (blk V c 3 t) (blk V c 4 t)
    | ⟨7, _⟩ => outO (blk V c 0 t) (blk V c 1 t) (blk V c 2 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = outS (blk V c 0 t) (blk V c 1 t) (blk V c 2 t) (blk V c 3 t) (blk V c 4 t) := by dsimp only [dat]
theorem after6 (c : Dev nD) (t : Fin cfg0.N) : (dat V c).after 6 t = outP (blk V c 0 t) (blk V c 1 t) (blk V c 2 t) (blk V c 3 t) (blk V c 4 t) := by dsimp only [dat]
theorem after7 (c : Dev nD) (t : Fin cfg0.N) : (dat V c).after 7 t = outO (blk V c 0 t) (blk V c 1 t) (blk V c 2 t) (blk V c 3 t) (blk V c 4 t) := by dsimp only [dat]

theorem before0 (c : Dev nD) (t : Fin cfg0.N) (d) : (dat V c).before 0 t d = blk V c 0 t := found0 V (dat V c) (dat_A V c 0) (after0 V c) t d
theorem before1 (c : Dev nD) (t : Fin cfg0.N) (d) : (dat V c).before 1 t d = blk V c 1 t := found1 V (dat V c) (dat_A V c 1) (after1 V c) t d
theorem before2 (c : Dev nD) (t : Fin cfg0.N) (d) : (dat V c).before 2 t d = blk V c 2 t := found2 V (dat V c) (dat_A V c 2) (after2 V c) t d
theorem before3 (c : Dev nD) (t : Fin cfg0.N) (d) : (dat V c).before 3 t d = blk V c 3 t := found3 V (dat V c) (dat_A V c 3) (after3 V c) t d
theorem before4 (c : Dev nD) (t : Fin cfg0.N) (d) : (dat V c).before 4 t d = blk V c 4 t := found4 V (dat V c) (dat_A V c 4) (after4 V c) t d

/-! ## The body at every point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at point `t`: its inputs' buffers hold their blocks, so `triple` applies; what the call keeps between
    points and what the core owes pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (triple c Set.univ (grid0.coords t) _ _ _ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W0, bigSep_W0]
  exact body_at V c t

end Cert.Kernel.Mlp1

end
-- ==== Proof.Kernel.Mlp2Body.lean ====
/-
  The second dense stage (two matrix products with bias and a clamp at zero over the pooled rows) as one grid of
  50 points: what one point leaves in the output window's buffer, as a function of the five input blocks it is
  handed, and the proof that the printed body does exactly that whatever the buffers held. Stated at a parameter
  `V`, the contents of the core's arrays when the call is entered, and at any float instance.
-/
import proofs.«112442_j455266533448_1_alg».proof.Proof.Gen.Kernel.Launch
import proofs.«112442_j455266533448_1_alg».proof.Proof.Gen.Kernel.Skeleton
import proofs.«112442_j455266533448_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.Kernel.Mlp2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at grid point `t`: the rows `1000 t … 1000 t + 999` of a row-blocked array, the whole
    array for the weights and biases. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block when the body starts, whether the block was fetched at this point or
    is still there from the first one (the weights and biases: their block index never moves). -/

theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## What the body stores -/

abbrev rX : Rect S1000x512 := Rect.unit (s := S1000x512) ![0, 0] S1000x512.size inb_S1000x512_S1000x512_0_0
abbrev rWa : Rect S512x512 := Rect.unit (s := S512x512) ![0, 0] S512x512.size inb_S512x512_S512x512_0_0
abbrev rBa : Rect S1x512 := Rect.unit (s := S1x512) ![0, 0] S1x512.size inb_S1x512_S1x512_0_0
abbrev rWb : Rect S512x128 := Rect.unit (s := S512x128) ![0, 0] S512x128.size inb_S512x128_S512x128_0_0
abbrev rBb : Rect S1x128 := Rect.unit (s := S1x128) ![0, 0] S1x128.size inb_S1x128_S1x128_0_0
abbrev rO : Rect S1000x128 := Rect.unit (s := S1000x128) ![0, 0] S1000x128.size inb_S1000x128_S1000x128_0_0

/-- The second layer's clamped output, as the one store into window 5 leaves it. -/
def outN (x : Vec F S1000x512 .bf16) (wa : Vec F S512x512 .bf16) (ba : Vec F S1x512 .f32) (wb : Vec F S512x128 .bf16) (bb : Vec F S1x128 .f32) : Vec F S1000x128 .f32 :=
  View.canon [⟨rO, k1_pay1 (View.ld x rX) (View.ld wa rWa) (View.ld ba rBa) (View.ld wb rWb) (View.ld bb rBb)⟩]

/-- One store through the whole-buffer rectangle covers the buffer. -/
theorem coverN (p : Vec F S1000x128 .f32) (y : S1000x128.Idx) :
    ∃ pc ∈ ([⟨rO, p⟩] : List (View.Piece (Elt F) S1000x128 .f32)), y ∈ pc.1.set :=
  View.cover_of_tiled [⟨rO, p⟩] S1000x128.size (by rfl) y

/-! ## The body's triple -/

set_option maxHeartbeats 2000000 in
/-- On whole staging buffers, the five inputs' at known contents and the output's at anything, the body runs to its
    end leaving the inputs as they were and the output at `outN` of the inputs (the old contents of the output,
    which the body reads before it overwrites them, reach nothing it stores). -/
theorem triple (c : Dev nD) (E : Set ℕ) (i : grid1.Coords)
    (arg1 : Memref sig .tc .vmem S1000x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S1x128 .f32) (harg5 : arg5.IsWhole) (arg6 : Memref sig .tc .vmem S1000x128 .f32) (harg6 : arg6.IsWhole)
    (x : Vec F S1000x512 .bf16) (wa : Vec F S512x512 .bf16) (ba : Vec F S1x512 .f32) (wb : Vec F S512x128 .bf16) (bb : Vec F S1x128 .f32)
    (K : PUnit → sProp 𝕄) :
    iprop(owns (c : Thread nD τ) arg1 fullShare x ∗ owns (c : Thread nD τ) arg2 fullShare wa ∗ owns (c : Thread nD τ) arg3 fullShare ba
        ∗ owns (c : Thread nD τ) arg4 fullShare wb ∗ owns (c : Thread nD τ) arg5 fullShare bb
        ∗ (∃ d, owns (c : Thread nD τ) arg6 fullShare d)
        ∗ (iprop(owns (c : Thread nD τ) arg1 fullShare x ∗ owns (c : Thread nD τ) arg2 fullShare wa ∗ owns (c : Thread nD τ) arg3 fullShare ba
            ∗ owns (c : Thread nD τ) arg4 fullShare wb ∗ owns (c : Thread nD τ) arg5 fullShare bb
            ∗ owns (c : Thread nD τ) arg6 fullShare (outN x wa ba wb bb)) -∗ K ⟨⟩))
      ⊢ wp frame (wpE (defs₀ (F := F)) Variants.none c none) E (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverN _)

/-! ## The proof data of the call -/

/-- The arrays as the call finds them; after the body at point `t` every input buffer still at its block and the
    output buffer at what the body stores; the call keeps nothing of its own between points. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outN (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = outN (blk V c 0 t) (blk V c 1 t) (blk V c 2 t) (blk V c 3 t) (blk V c 4 t) := by dsimp only [dat]

theorem before0 (c : Dev nD) (t : Fin cfg1.N) (d) : (dat V c).before 0 t d = blk V c 0 t := found0 V (dat V c) (dat_A V c 0) (after0 V c) t d
theorem before1 (c : Dev nD) (t : Fin cfg1.N) (d) : (dat V c).before 1 t d = blk V c 1 t := found1 V (dat V c) (dat_A V c 1) (after1 V c) t d
theorem before2 (c : Dev nD) (t : Fin cfg1.N) (d) : (dat V c).before 2 t d = blk V c 2 t := found2 V (dat V c) (dat_A V c 2) (after2 V c) t d
theorem before3 (c : Dev nD) (t : Fin cfg1.N) (d) : (dat V c).before 3 t d = blk V c 3 t := found3 V (dat V c) (dat_A V c 3) (after3 V c) t d
theorem before4 (c : Dev nD) (t : Fin cfg1.N) (d) : (dat V c).before 4 t d = blk V c 4 t := found4 V (dat V c) (dat_A V c 4) (after4 V c) t d

/-! ## The body at every point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at point `t`: its inputs' buffers hold their blocks, so `triple` applies; what the call keeps between
    points and what the core owes pass through untouched. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid1.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact body_at V c t

end Cert.Kernel.Mlp2

end
-- ==== Proof.Kernel.Whole.lean ====
/-
  The whole program run: two host stretches and the two dense stages between and after them, from the launch to the
  return. The contents of every array of the core at each boundary are named by a fold through the program
  (`W0 … W4`): a host stretch applies its operations, a dense stage replaces its windows' arrays by what its points
  wrote back and leaves every other array alone. Every weakly fair execution terminates, nothing faulting, with every
  array at `W4` (`run_all`); since no host operation and no stage writes an argument, the arguments end as launched
  (`frame`). Stated at any float instance.
-/
import proofs.«112442_j455266533448_1_alg».proof.Proof.Kernel.Mlp1Body
import proofs.«112442_j455266533448_1_alg».proof.Proof.Kernel.Mlp2Body
import proofs.«112442_j455266533448_1_alg».proof.Proof.Gen.Kernel.Regions

-- membership of an index in a rectangle of these extents is decided structurally, one step per coordinate
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => (s₀ m ρ).mem ((c : Dev nD), b)
/-- After the first host stretch (index normalisation, the two row gathers, the concatenation, the weights transposed). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first dense stage: its three result arrays at what its 100 points wrote back, everything else kept. -/
def W2 (c : Dev nD) : Valuation τ sig (Elt F) :=
  Pipeline.withArrays spec0 c (W1 m ρ c) fun w => (Mlp1.dat (V1 m ρ) c).arrAt w cfg0.N
theorem W2_arr (c : Dev nD) (w : Fin cfg0.W) :
    W2 m ρ c (Proc.devRef .tc (Pipeline.arrRef spec0 w)) = (Mlp1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Mlp1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the two scatter-additions, the counts, the division, the weights transposed). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second dense stage: its result array at what its 50 points wrote back, everything else kept. -/
def W4 (c : Dev nD) : Valuation τ sig (Elt F) :=
  Pipeline.withArrays spec1 c (W3 m ρ c) fun w => (Mlp2.dat (V3 m ρ) c).arrAt w cfg1.N
theorem W4_arr (c : Dev nD) (w : Fin cfg1.W) :
    W4 m ρ c (Proc.devRef .tc (Pipeline.arrRef spec1 w)) = (Mlp2.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Mlp2.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What nothing writes is kept -/

/-- A host stretch leaves alone every array none of its operations writes. -/
theorem W1_keep (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_keep (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- An array that no host operation writes and that is no window's array of either stage ends as launched. -/
theorem W4_launch (c : Dev nD) (r : Ref sig .tc) (h0 : r ∉ (hostOps0_W : List (Ref sig .tc))) (h1 : ∀ w, Pipeline.arrRef spec0 w ≠ r)
    (h2 : r ∉ (hostOps1_W : List (Ref sig .tc))) (h3 : ∀ w, Pipeline.arrRef spec1 w ≠ r) :
    W4 m ρ c (Proc.devRef .tc r) = m ((c : Thread nD τ).loc r) :=
  (W4_of_ne m ρ c r h3).trans <| (W3_keep m ρ c r h2).trans <| (W2_of_ne m ρ c r h1).trans <| (W1_keep m ρ c r h0).trans rfl

theorem W4_main_arg0 (c : Dev nD) : W4 m ρ c (Proc.devRef .tc main_arg0) = m ((c : Thread nD τ).loc main_arg0) :=
  W4_launch m ρ c main_arg0 (by decide) (by decide) (by decide) (by decide)
theorem W4_main_arg1 (c : Dev nD) : W4 m ρ c (Proc.devRef .tc main_arg1) = m ((c : Thread nD τ).loc main_arg1) :=
  W4_launch m ρ c main_arg1 (by decide) (by decide) (by decide) (by decide)
theorem W4_main_arg2 (c : Dev nD) : W4 m ρ c (Proc.devRef .tc main_arg2) = m ((c : Thread nD τ).loc main_arg2) :=
  W4_launch m ρ c main_arg2 (by decide) (by decide) (by decide) (by decide)
theorem W4_main_arg3 (c : Dev nD) : W4 m ρ c (Proc.devRef .tc main_arg3) = m ((c : Thread nD τ).loc main_arg3) :=
  W4_launch m ρ c main_arg3 (by decide) (by decide) (by decide) (by decide)
theorem W4_main_arg4 (c : Dev nD) : W4 m ρ c (Proc.devRef .tc main_arg4) = m ((c : Thread nD τ).loc main_arg4) :=
  W4_launch m ρ c main_arg4 (by decide) (by decide) (by decide) (by decide)
theorem W4_main_arg5 (c : Dev nD) : W4 m ρ c (Proc.devRef .tc main_arg5) = m ((c : Thread nD τ).loc main_arg5) :=
  W4_launch m ρ c main_arg5 (by decide) (by decide) (by decide) (by decide)
theorem W4_main_arg6 (c : Dev nD) : W4 m ρ c (Proc.devRef .tc main_arg6) = m ((c : Thread nD τ).loc main_arg6) :=
  W4_launch m ρ c main_arg6 (by decide) (by decide) (by decide) (by decide)
theorem W4_main_arg7 (c : Dev nD) : W4 m ρ c (Proc.devRef .tc main_arg7) = m ((c : Thread nD τ).loc main_arg7) :=
  W4_launch m ρ c main_arg7 (by decide) (by decide) (by decide) (by decide)
theorem W4_main_arg8 (c : Dev nD) : W4 m ρ c (Proc.devRef .tc main_arg8) = m ((c : Thread nD τ).loc main_arg8) :=
  W4_launch m ρ c main_arg8 (by decide) (by decide) (by decide) (by decide)
theorem W4_main_arg9 (c : Dev nD) : W4 m ρ c (Proc.devRef .tc main_arg9) = m ((c : Thread nD τ).loc main_arg9) :=
  W4_launch m ρ c main_arg9 (by decide) (by decide) (by decide) (by decide)
theorem W4_main_arg10 (c : Dev nD) : W4 m ρ c (Proc.devRef .tc main_arg10) = m ((c : Thread nD τ).loc main_arg10) :=
  W4_launch m ρ c main_arg10 (by decide) (by decide) (by decide) (by decide)

/-- The first result: the second stage's output array, as its points wrote it back. -/
theorem W4_main_v71 (c : Dev nD) : W4 m ρ c (Proc.devRef .tc main_v71) = (Mlp2.dat (V3 m ρ) c).arrAt 5 cfg1.N :=
  W4_arr m ρ c 5
/-- The second result: the first stage's predicate columns, which nothing later writes. -/
theorem W4_main_v26_1 (c : Dev nD) : W4 m ρ c (Proc.devRef .tc main_v26_1) = (Mlp1.dat (V1 m ρ) c).arrAt 6 cfg0.N :=
  (W4_of_ne m ρ c main_v26_1 (by decide)).trans <| (W3_keep m ρ c main_v26_1 (by decide)).trans (W2_arr m ρ c 6)

/-! ## The proof data family and what rides beside the arrays -/

abbrev adm : (p : Fin 2) → (pcfgs (F := F) p).Adm := fun p => (cfgs p).toPCfg_adm
/-- Each stage's proof data at the contents it is entered from. -/
def pdats : (p : Fin 2) → (c : Dev nD) → Dat τ (Elt F) Unit ℕ (UR sig nD τ) ℕ (Pipeline.pin (pcfgs (F := F)) adm p) c
  | ⟨0, _⟩ => fun c => Mlp1.dat (V1 m ρ) c
  | ⟨1, _⟩ => fun c => Mlp2.dat (V3 m ρ) c
abbrev 𝒱₀ : Variants := Variants.none
abbrev L : GSem nD τ sig → Finset Unit := fun _ => ∅
abbrev lv : GSem nD τ sig → Unit → ℕ := fun _ _ => 0
/-- Beside the arrays every segment carries the core's generator register at some state and the fact that the core
    owes no one anything. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two dense stages as segments -/

set_option backward.isDefEq.respectTransparency.types false in
/-- The first stage: entered with every array at `W1`, left with every array at `W2`. Its windows' arrays are split
    off the rest on entry and put back at what the points wrote on exit; the generator register goes into the stage's
    invariant and comes back; nothing is owed, and the stage has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Mlp1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second stage: entered with every array at `W3`, left with every array at `W4`, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mlp2.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    in every final state every array of every core holds its `W4` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_all m ρ)

end Cert.Kernel.Whole

end
-- ==== Proof.KernelIdeal.Mlp1Body.lean ====
/-
  The first dense stage (two matrix products with bias and a clamp at zero, row block by row block) as one
  grid of 100 points: what one point leaves in the three output windows' buffers, as a function of the five
  input blocks it is handed, and the proof that the printed body does exactly that whatever the buffers held.
  Everything is stated at a parameter `V`, the contents of the core's arrays when the call is entered, and at any
  float instance.
-/
import proofs.«112442_j455266533448_1_alg».proof.Proof.Gen.KernelIdeal.Launch
import proofs.«112442_j455266533448_1_alg».proof.Proof.Gen.KernelIdeal.Skeleton
import proofs.«112442_j455266533448_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.KernelIdeal.Mlp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at grid point `t`: the rows `1000 t … 1000 t + 999` of a row-blocked array, the whole
    array for the weights and biases. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block when the body starts, whether the block was fetched at this point or
    is still there from the first one (the weights and biases: their block index never moves). -/

theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## What the body stores -/

abbrev rX : Rect S1000x384 := Rect.unit (s := S1000x384) ![0, 0] S1000x384.size inb_S1000x384_S1000x384_0_0
abbrev rWa : Rect S384x512 := Rect.unit (s := S384x512) ![0, 0] S384x512.size inb_S384x512_S384x512_0_0
abbrev rBa : Rect S1x512 := Rect.unit (s := S1x512) ![0, 0] S1x512.size inb_S1x512_S1x512_0_0
abbrev rWb : Rect S512x1152 := Rect.unit (s := S512x1152) ![0, 0] S512x1152.size inb_S512x1152_S512x1152_0_0
abbrev rBb : Rect S1x1152 := Rect.unit (s := S1x1152) ![0, 0] S1x1152.size inb_S1x1152_S1x1152_0_0
abbrev rS : Rect S1000x512 := Rect.unit (s := S1000x512) ![0, 0] S1000x512.size inb_S1000x512_S1000x512_0_0
abbrev rP : Rect S1000x128 := Rect.unit (s := S1000x128) ![0, 0] S1000x128.size inb_S1000x128_S1000x128_0_0

/-- The subject columns `0 … 511` of the second layer's clamped output, as the one store into window 5 leaves them. -/
def outS (x : Vec F S1000x384 .bf16) (wa : Vec F S384x512 .bf16) (ba : Vec F S1x512 .f32) (wb : Vec F S512x1152 .bf16) (bb : Vec F S1x1152 .f32) : Vec F S1000x512 .f32 :=
  View.canon [⟨rS, k0_pay2 (View.ld x rX) (View.ld wa rWa) (View.ld ba rBa) (View.ld wb rWb) (View.ld bb rBb)⟩]
/-- The predicate columns `512 … 639`, window 6. -/
def outP (x : Vec F S1000x384 .bf16) (wa : Vec F S384x512 .bf16) (ba : Vec F S1x512 .f32) (wb : Vec F S512x1152 .bf16) (bb : Vec F S1x1152 .f32) : Vec F S1000x128 .f32 :=
  View.canon [⟨rP, k0_pay3 (View.ld x rX) (View.ld wa rWa) (View.ld ba rBa) (View.ld wb rWb) (View.ld bb rBb)⟩]
/-- The object columns `640 … 1151`, window 7. -/
def outO (x : Vec F S1000x384 .bf16) (wa : Vec F S384x512 .bf16) (ba : Vec F S1x512 .f32) (wb : Vec F S512x1152 .bf16) (bb : Vec F S1x1152 .f32) : Vec F S1000x512 .f32 :=
  View.canon [⟨rS, k0_pay4 (View.ld x rX) (View.ld wa rWa) (View.ld ba rBa) (View.ld wb rWb) (View.ld bb rBb)⟩]

/-- One store through the whole-buffer rectangle covers the buffer. -/
theorem coverS (p : Vec F S1000x512 .f32) (y : S1000x512.Idx) :
    ∃ pc ∈ ([⟨rS, p⟩] : List (View.Piece (Elt F) S1000x512 .f32)), y ∈ pc.1.set :=
  View.cover_of_tiled [⟨rS, p⟩] S1000x512.size (by rfl) y
theorem coverP (p : Vec F S1000x128 .f32) (y : S1000x128.Idx) :
    ∃ pc ∈ ([⟨rP, p⟩] : List (View.Piece (Elt F) S1000x128 .f32)), y ∈ pc.1.set :=
  View.cover_of_tiled [⟨rP, p⟩] S1000x128.size (by rfl) y

/-! ## The body's triple -/

set_option maxHeartbeats 2000000 in
/-- On whole staging buffers, the five inputs' at known contents and the three outputs' at anything, the body runs
    to its end leaving the inputs as they were and each output at `outS` / `outP` / `outO` of the inputs (the old
    contents of an output, which the body reads before it overwrites them, reach nothing it stores). -/
theorem triple (c : Dev nD) (E : Set ℕ) (i : grid0.Coords)
    (arg1 : Memref sig .tc .vmem S1000x384 .bf16) (harg1 : arg1.IsWhole) (arg2 : Memref sig .tc .vmem S384x512 .bf16) (harg2 : arg2.IsWhole)
    (arg3 : Memref sig .tc .vmem S1x512 .f32) (harg3 : arg3.IsWhole) (arg4 : Memref sig .tc .vmem S512x1152 .bf16) (harg4 : arg4.IsWhole)
    (arg5 : Memref sig .tc .vmem S1x1152 .f32) (harg5 : arg5.IsWhole) (arg6 : Memref sig .tc .vmem S1000x512 .f32) (harg6 : arg6.IsWhole)
    (arg7 : Memref sig .tc .vmem S1000x128 .f32) (harg7 : arg7.IsWhole) (arg8 : Memref sig .tc .vmem S1000x512 .f32) (harg8 : arg8.IsWhole)
    (x : Vec F S1000x384 .bf16) (wa : Vec F S384x512 .bf16) (ba : Vec F S1x512 .f32) (wb : Vec F S512x1152 .bf16) (bb : Vec F S1x1152 .f32)
    (K : PUnit → sProp 𝕄) :
    iprop(owns (c : Thread nD τ) arg1 fullShare x ∗ owns (c : Thread nD τ) arg2 fullShare wa ∗ owns (c : Thread nD τ) arg3 fullShare ba
        ∗ owns (c : Thread nD τ) arg4 fullShare wb ∗ owns (c : Thread nD τ) arg5 fullShare bb
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare wa ∗ owns (c : Thread nD τ) arg3 fullShare ba
            ∗ owns (c : Thread nD τ) arg4 fullShare wb ∗ owns (c : Thread nD τ) arg5 fullShare bb
            ∗ owns (c : Thread nD τ) arg6 fullShare (outS x wa ba wb bb) ∗ owns (c : Thread nD τ) arg7 fullShare (outP x wa ba wb bb)
            ∗ owns (c : Thread nD τ) arg8 fullShare (outO x wa ba wb bb)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS _)
  isplitl [H6]
  · iexists _; isplitr
    swap; · iexact H6
    ipureintro
    exact View.read_writes_eq_canon _ _ _ (coverP _)
  iexists _; isplitr
  swap; · iexact H7
  ipureintro
  exact View.read_writes_eq_canon _ _ _ (coverS _)

/-! ## The proof data of the call -/

/-- The arrays as the call finds them; after the body at point `t` every input buffer still at its block and the
    three output buffers at what the body stores; the call keeps nothing of its own between points. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outS (blk V c 0 t) (blk V c 1 t) (blk V c 2 t) (blk V c 3 t) (blk V c 4 t)
    | ⟨6, _⟩ => outP (blk V c 0 t) (blk V c 1 t) (blk V c 2 t) (blk V c 3 t) (blk V c 4 t)
    | ⟨7, _⟩ => outO (blk V c 0 t) (blk V c 1 t) (blk V c 2 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = outS (blk V c 0 t) (blk V c 1 t) (blk V c 2 t) (blk V c 3 t) (blk V c 4 t) := by dsimp only [dat]
theorem after6 (c : Dev nD) (t : Fin cfg0.N) : (dat V c).after 6 t = outP (blk V c 0 t) (blk V c 1 t) (blk V c 2 t) (blk V c 3 t) (blk V c 4 t) := by dsimp only [dat]
theorem after7 (c : Dev nD) (t : Fin cfg0.N) : (dat V c).after 7 t = outO (blk V c 0 t) (blk V c 1 t) (blk V c 2 t) (blk V c 3 t) (blk V c 4 t) := by dsimp only [dat]

theorem before0 (c : Dev nD) (t : Fin cfg0.N) (d) : (dat V c).before 0 t d = blk V c 0 t := found0 V (dat V c) (dat_A V c 0) (after0 V c) t d
theorem before1 (c : Dev nD) (t : Fin cfg0.N) (d) : (dat V c).before 1 t d = blk V c 1 t := found1 V (dat V c) (dat_A V c 1) (after1 V c) t d
theorem before2 (c : Dev nD) (t : Fin cfg0.N) (d) : (dat V c).before 2 t d = blk V c 2 t := found2 V (dat V c) (dat_A V c 2) (after2 V c) t d
theorem before3 (c : Dev nD) (t : Fin cfg0.N) (d) : (dat V c).before 3 t d = blk V c 3 t := found3 V (dat V c) (dat_A V c 3) (after3 V c) t d
theorem before4 (c : Dev nD) (t : Fin cfg0.N) (d) : (dat V c).before 4 t d = blk V c 4 t := found4 V (dat V c) (dat_A V c 4) (after4 V c) t d

/-! ## The body at every point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at point `t`: its inputs' buffers hold their blocks, so `triple` applies; what the call keeps between
    points and what the core owes pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (triple c Set.univ (grid0.coords t) _ _ _ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W0, bigSep_W0]
  exact body_at V c t

end Cert.KernelIdeal.Mlp1

end
-- ==== Proof.KernelIdeal.Mlp2Body.lean ====
/-
  The second dense stage (two matrix products with bias and a clamp at zero over the pooled rows) as one grid of
  50 points: what one point leaves in the output window's buffer, as a function of the five input blocks it is
  handed, and the proof that the printed body does exactly that whatever the buffers held. Stated at a parameter
  `V`, the contents of the core's arrays when the call is entered, and at any float instance.
-/
import proofs.«112442_j455266533448_1_alg».proof.Proof.Gen.KernelIdeal.Launch
import proofs.«112442_j455266533448_1_alg».proof.Proof.Gen.KernelIdeal.Skeleton
import proofs.«112442_j455266533448_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.KernelIdeal.Mlp2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point is handed -/

/-- Window `w`'s block at grid point `t`: the rows `1000 t … 1000 t + 999` of a row-blocked array, the whole
    array for the weights and biases. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block when the body starts, whether the block was fetched at this point or
    is still there from the first one (the weights and biases: their block index never moves). -/

theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## What the body stores -/

abbrev rX : Rect S1000x512 := Rect.unit (s := S1000x512) ![0, 0] S1000x512.size inb_S1000x512_S1000x512_0_0
abbrev rWa : Rect S512x512 := Rect.unit (s := S512x512) ![0, 0] S512x512.size inb_S512x512_S512x512_0_0
abbrev rBa : Rect S1x512 := Rect.unit (s := S1x512) ![0, 0] S1x512.size inb_S1x512_S1x512_0_0
abbrev rWb : Rect S512x128 := Rect.unit (s := S512x128) ![0, 0] S512x128.size inb_S512x128_S512x128_0_0
abbrev rBb : Rect S1x128 := Rect.unit (s := S1x128) ![0, 0] S1x128.size inb_S1x128_S1x128_0_0
abbrev rO : Rect S1000x128 := Rect.unit (s := S1000x128) ![0, 0] S1000x128.size inb_S1000x128_S1000x128_0_0

/-- The second layer's clamped output, as the one store into window 5 leaves it. -/
def outN (x : Vec F S1000x512 .bf16) (wa : Vec F S512x512 .bf16) (ba : Vec F S1x512 .f32) (wb : Vec F S512x128 .bf16) (bb : Vec F S1x128 .f32) : Vec F S1000x128 .f32 :=
  View.canon [⟨rO, k1_pay1 (View.ld x rX) (View.ld wa rWa) (View.ld ba rBa) (View.ld wb rWb) (View.ld bb rBb)⟩]

/-- One store through the whole-buffer rectangle covers the buffer. -/
theorem coverN (p : Vec F S1000x128 .f32) (y : S1000x128.Idx) :
    ∃ pc ∈ ([⟨rO, p⟩] : List (View.Piece (Elt F) S1000x128 .f32)), y ∈ pc.1.set :=
  View.cover_of_tiled [⟨rO, p⟩] S1000x128.size (by rfl) y

/-! ## The body's triple -/

set_option maxHeartbeats 2000000 in
/-- On whole staging buffers, the five inputs' at known contents and the output's at anything, the body runs to its
    end leaving the inputs as they were and the output at `outN` of the inputs (the old contents of the output,
    which the body reads before it overwrites them, reach nothing it stores). -/
theorem triple (c : Dev nD) (E : Set ℕ) (i : grid1.Coords)
    (arg1 : Memref sig .tc .vmem S1000x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S1x128 .f32) (harg5 : arg5.IsWhole) (arg6 : Memref sig .tc .vmem S1000x128 .f32) (harg6 : arg6.IsWhole)
    (x : Vec F S1000x512 .bf16) (wa : Vec F S512x512 .bf16) (ba : Vec F S1x512 .f32) (wb : Vec F S512x128 .bf16) (bb : Vec F S1x128 .f32)
    (K : PUnit → sProp 𝕄) :
    iprop(owns (c : Thread nD τ) arg1 fullShare x ∗ owns (c : Thread nD τ) arg2 fullShare wa ∗ owns (c : Thread nD τ) arg3 fullShare ba
        ∗ owns (c : Thread nD τ) arg4 fullShare wb ∗ owns (c : Thread nD τ) arg5 fullShare bb
        ∗ (∃ d, owns (c : Thread nD τ) arg6 fullShare d)
        ∗ (iprop(owns (c : Thread nD τ) arg1 fullShare x ∗ owns (c : Thread nD τ) arg2 fullShare wa ∗ owns (c : Thread nD τ) arg3 fullShare ba
            ∗ owns (c : Thread nD τ) arg4 fullShare wb ∗ owns (c : Thread nD τ) arg5 fullShare bb
            ∗ owns (c : Thread nD τ) arg6 fullShare (outN x wa ba wb bb)) -∗ K ⟨⟩))
      ⊢ wp frame (wpE (defs₀ (F := F)) Variants.none c none) E (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverN _)

/-! ## The proof data of the call -/

/-- The arrays as the call finds them; after the body at point `t` every input buffer still at its block and the
    output buffer at what the body stores; the call keeps nothing of its own between points. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outN (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = outN (blk V c 0 t) (blk V c 1 t) (blk V c 2 t) (blk V c 3 t) (blk V c 4 t) := by dsimp only [dat]

theorem before0 (c : Dev nD) (t : Fin cfg1.N) (d) : (dat V c).before 0 t d = blk V c 0 t := found0 V (dat V c) (dat_A V c 0) (after0 V c) t d
theorem before1 (c : Dev nD) (t : Fin cfg1.N) (d) : (dat V c).before 1 t d = blk V c 1 t := found1 V (dat V c) (dat_A V c 1) (after1 V c) t d
theorem before2 (c : Dev nD) (t : Fin cfg1.N) (d) : (dat V c).before 2 t d = blk V c 2 t := found2 V (dat V c) (dat_A V c 2) (after2 V c) t d
theorem before3 (c : Dev nD) (t : Fin cfg1.N) (d) : (dat V c).before 3 t d = blk V c 3 t := found3 V (dat V c) (dat_A V c 3) (after3 V c) t d
theorem before4 (c : Dev nD) (t : Fin cfg1.N) (d) : (dat V c).before 4 t d = blk V c 4 t := found4 V (dat V c) (dat_A V c 4) (after4 V c) t d

/-! ## The body at every point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at point `t`: its inputs' buffers hold their blocks, so `triple` applies; what the call keeps between
    points and what the core owes pass through untouched. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid1.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact body_at V c t

end Cert.KernelIdeal.Mlp2

end
-- ==== Proof.KernelIdeal.Whole.lean ====
/-
  The whole program run: two host stretches and the two dense stages between and after them, from the launch to the
  return. The contents of every array of the core at each boundary are named by a fold through the program
  (`W0 … W4`): a host stretch applies its operations, a dense stage replaces its windows' arrays by what its points
  wrote back and leaves every other array alone. Every weakly fair execution terminates, nothing faulting, with every
  array at `W4` (`run_all`); since no host operation and no stage writes an argument, the arguments end as launched
  (`frame`). Stated at any float instance.
-/
import proofs.«112442_j455266533448_1_alg».proof.Proof.KernelIdeal.Mlp1Body
import proofs.«112442_j455266533448_1_alg».proof.Proof.KernelIdeal.Mlp2Body
import proofs.«112442_j455266533448_1_alg».proof.Proof.Gen.KernelIdeal.Regions

-- membership of an index in a rectangle of these extents is decided structurally, one step per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => (s₀ m ρ).mem ((c : Dev nD), b)
/-- After the first host stretch (index normalisation, the two row gathers, the concatenation, the weights transposed). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first dense stage: its three result arrays at what its 100 points wrote back, everything else kept. -/
def W2 (c : Dev nD) : Valuation τ sig (Elt F) :=
  Pipeline.withArrays spec0 c (W1 m ρ c) fun w => (Mlp1.dat (V1 m ρ) c).arrAt w cfg0.N
theorem W2_arr (c : Dev nD) (w : Fin cfg0.W) :
    W2 m ρ c (Proc.devRef .tc (Pipeline.arrRef spec0 w)) = (Mlp1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Mlp1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the two scatter-additions, the counts, the division, the weights transposed). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second dense stage: its result array at what its 50 points wrote back, everything else kept. -/
def W4 (c : Dev nD) : Valuation τ sig (Elt F) :=
  Pipeline.withArrays spec1 c (W3 m ρ c) fun w => (Mlp2.dat (V3 m ρ) c).arrAt w cfg1.N
theorem W4_arr (c : Dev nD) (w : Fin cfg1.W) :
    W4 m ρ c (Proc.devRef .tc (Pipeline.arrRef spec1 w)) = (Mlp2.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Mlp2.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What nothing writes is kept -/

/-- A host stretch leaves alone every array none of its operations writes. -/
theorem W1_keep (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_keep (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- An array that no host operation writes and that is no window's array of either stage ends as launched. -/
theorem W4_launch (c : Dev nD) (r : Ref sig .tc) (h0 : r ∉ (hostOps0_W : List (Ref sig .tc))) (h1 : ∀ w, Pipeline.arrRef spec0 w ≠ r)
    (h2 : r ∉ (hostOps1_W : List (Ref sig .tc))) (h3 : ∀ w, Pipeline.arrRef spec1 w ≠ r) :
    W4 m ρ c (Proc.devRef .tc r) = m ((c : Thread nD τ).loc r) :=
  (W4_of_ne m ρ c r h3).trans <| (W3_keep m ρ c r h2).trans <| (W2_of_ne m ρ c r h1).trans <| (W1_keep m ρ c r h0).trans rfl

theorem W4_main_arg0 (c : Dev nD) : W4 m ρ c (Proc.devRef .tc main_arg0) = m ((c : Thread nD τ).loc main_arg0) :=
  W4_launch m ρ c main_arg0 (by decide) (by decide) (by decide) (by decide)
theorem W4_main_arg1 (c : Dev nD) : W4 m ρ c (Proc.devRef .tc main_arg1) = m ((c : Thread nD τ).loc main_arg1) :=
  W4_launch m ρ c main_arg1 (by decide) (by decide) (by decide) (by decide)
theorem W4_main_arg2 (c : Dev nD) : W4 m ρ c (Proc.devRef .tc main_arg2) = m ((c : Thread nD τ).loc main_arg2) :=
  W4_launch m ρ c main_arg2 (by decide) (by decide) (by decide) (by decide)
theorem W4_main_arg3 (c : Dev nD) : W4 m ρ c (Proc.devRef .tc main_arg3) = m ((c : Thread nD τ).loc main_arg3) :=
  W4_launch m ρ c main_arg3 (by decide) (by decide) (by decide) (by decide)
theorem W4_main_arg4 (c : Dev nD) : W4 m ρ c (Proc.devRef .tc main_arg4) = m ((c : Thread nD τ).loc main_arg4) :=
  W4_launch m ρ c main_arg4 (by decide) (by decide) (by decide) (by decide)
theorem W4_main_arg5 (c : Dev nD) : W4 m ρ c (Proc.devRef .tc main_arg5) = m ((c : Thread nD τ).loc main_arg5) :=
  W4_launch m ρ c main_arg5 (by decide) (by decide) (by decide) (by decide)
theorem W4_main_arg6 (c : Dev nD) : W4 m ρ c (Proc.devRef .tc main_arg6) = m ((c : Thread nD τ).loc main_arg6) :=
  W4_launch m ρ c main_arg6 (by decide) (by decide) (by decide) (by decide)
theorem W4_main_arg7 (c : Dev nD) : W4 m ρ c (Proc.devRef .tc main_arg7) = m ((c : Thread nD τ).loc main_arg7) :=
  W4_launch m ρ c main_arg7 (by decide) (by decide) (by decide) (by decide)
theorem W4_main_arg8 (c : Dev nD) : W4 m ρ c (Proc.devRef .tc main_arg8) = m ((c : Thread nD τ).loc main_arg8) :=
  W4_launch m ρ c main_arg8 (by decide) (by decide) (by decide) (by decide)
theorem W4_main_arg9 (c : Dev nD) : W4 m ρ c (Proc.devRef .tc main_arg9) = m ((c : Thread nD τ).loc main_arg9) :=
  W4_launch m ρ c main_arg9 (by decide) (by decide) (by decide) (by decide)
theorem W4_main_arg10 (c : Dev nD) : W4 m ρ c (Proc.devRef .tc main_arg10) = m ((c : Thread nD τ).loc main_arg10) :=
  W4_launch m ρ c main_arg10 (by decide) (by decide) (by decide) (by decide)

/-- The first result: the second stage's output array, as its points wrote it back. -/
theorem W4_main_v71 (c : Dev nD) : W4 m ρ c (Proc.devRef .tc main_v71) = (Mlp2.dat (V3 m ρ) c).arrAt 5 cfg1.N :=
  W4_arr m ρ c 5
/-- The second result: the first stage's predicate columns, which nothing later writes. -/
theorem W4_main_v26_1 (c : Dev nD) : W4 m ρ c (Proc.devRef .tc main_v26_1) = (Mlp1.dat (V1 m ρ) c).arrAt 6 cfg0.N :=
  (W4_of_ne m ρ c main_v26_1 (by decide)).trans <| (W3_keep m ρ c main_v26_1 (by decide)).trans (W2_arr m ρ c 6)

/-! ## The proof data family and what rides beside the arrays -/

abbrev adm : (p : Fin 2) → (pcfgs (F := F) p).Adm := fun p => (cfgs p).toPCfg_adm
/-- Each stage's proof data at the contents it is entered from. -/
def pdats : (p : Fin 2) → (c : Dev nD) → Dat τ (Elt F) Unit ℕ (UR sig nD τ) ℕ (Pipeline.pin (pcfgs (F := F)) adm p) c
  | ⟨0, _⟩ => fun c => Mlp1.dat (V1 m ρ) c
  | ⟨1, _⟩ => fun c => Mlp2.dat (V3 m ρ) c
abbrev 𝒱₀ : Variants := Variants.none
abbrev L : GSem nD τ sig → Finset Unit := fun _ => ∅
abbrev lv : GSem nD τ sig → Unit → ℕ := fun _ _ => 0
/-- Beside the arrays every segment carries the core's generator register at some state and the fact that the core
    owes no one anything. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two dense stages as segments -/

set_option backward.isDefEq.respectTransparency.types false in
/-- The first stage: entered with every array at `W1`, left with every array at `W2`. Its windows' arrays are split
    off the rest on entry and put back at what the points wrote on exit; the generator register goes into the stage's
    invariant and comes back; nothing is owed, and the stage has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Mlp1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second stage: entered with every array at `W3`, left with every array at `W4`, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mlp2.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    in every final state every array of every core holds its `W4` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_all m ρ)

end Cert.KernelIdeal.Whole

end
-- ==== Proof.KernelIdeal.HostIn.lean ====
/-
  What the two host stretches hand the dense stages, as terms of the launch memory, at any float instance.
  The first stretch gathers the subject and object rows, joins them with the predicate features, narrows the
  features and weights to bf16 and transposes the weights: the first stage's feature array is the reference's
  joined features (narrowed), its weight arrays the arguments' transposes, its bias arrays the arguments as one row.
  The second stretch pools: both stages' outputs are scatter-added over the objects and divided by the clamped counts
  (`pool`, one function of the index array and the two outputs, the same operations the reference applies),
  and the second stage's weights and biases are prepared the same way.
-/
import proofs.«112442_j455266533448_1_alg».proof.Proof.KernelIdeal.Whole
import proofs.«112442_j455266533448_1_alg».proof.Proof.Gen.ReferenceIdeal.Read
import Idealize.ShloMosaic.Lib.StableHlo.Run

-- membership of an index in a rectangle of these extents is decided structurally, one step per coordinate
set_option maxRecDepth 16384

noncomputable section

namespace Cert.KernelIdeal.HostIn

open Idealize.ShloMosaic Idealize.ShloMosaic.TcCoe Idealize.SL.Sem Idealize.ShloMosaic.StableHlo
open Cert.KernelIdeal.Gen Cert.KernelIdeal.Whole

variable {F : FTy → Type} [FloatOps F]
variable (m : (ℓ : Loc nD τ sig) → Buf (Elt F) ℓ) (ρ : Dev nD → PrngReg)

/-! ## Before the first stage -/

set_option maxHeartbeats 4000000 in
/-- The features: the reference's joined rows (subject row, predicate row, object row), narrowed. -/
theorem feats_eq (c : Dev nD) : V1 m ρ c main_v19
    = truncf .bf16 (Cert.ReferenceIdeal.Read.val_main_v18 (F := F) (m ((c : Thread nD τ).loc main_arg0)) (m ((c : Thread nD τ).loc main_arg1)) (m ((c : Thread nD τ).loc main_arg2))) bitsLt_bf16_f32 := by
  show StableHlo.after hostOps0 (W0 m ρ c) (Proc.devRef .tc main_v19) = _
  after_results
  rfl

/-- The first layer's weights, narrowed and transposed. -/
theorem wA_eq (c : Dev nD) : V1 m ρ c main_v21
    = transpose S384x512 [1, 0] (truncf .bf16 (m ((c : Thread nD τ).loc main_arg3)) bitsLt_bf16_f32) transposes_S512x384_S384x512_1_0 := by
  show StableHlo.after hostOps0 (W0 m ρ c) (Proc.devRef .tc main_v21) = _
  after_results
  try rfl
/-- The first layer's bias as one row. -/
theorem bA_eq (c : Dev nD) : V1 m ρ c main_v24 = shapeCast _ (m ((c : Thread nD τ).loc main_arg4)) shapeCasts_S512_S1x512 := by
  show StableHlo.after hostOps0 (W0 m ρ c) (Proc.devRef .tc main_v24) = _
  after_results
  try rfl
/-- The second layer's weights, narrowed and transposed. -/
theorem wB_eq (c : Dev nD) : V1 m ρ c main_v23
    = transpose S512x1152 [1, 0] (truncf .bf16 (m ((c : Thread nD τ).loc main_arg5)) bitsLt_bf16_f32) transposes_S1152x512_S512x1152_1_0 := by
  show StableHlo.after hostOps0 (W0 m ρ c) (Proc.devRef .tc main_v23) = _
  after_results
  try rfl
/-- The second layer's bias as one row. -/
theorem bB_eq (c : Dev nD) : V1 m ρ c main_v25 = shapeCast _ (m ((c : Thread nD τ).loc main_arg6)) shapeCasts_S1152_S1x1152 := by
  show StableHlo.after hostOps0 (W0 m ρ c) (Proc.devRef .tc main_v25) = _
  after_results
  try rfl

/-- The two index columns (subjects, objects) as the first stretch leaves them. -/
theorem subjIdx_eq (c : Dev nD) : W1 m ρ c (Proc.devRef .tc main_v1) = Cert.ReferenceIdeal.Read.val_main_v1 (F := F) (m ((c : Thread nD τ).loc main_arg2)) := by
  show StableHlo.after hostOps0 (W0 m ρ c) (Proc.devRef .tc main_v1) = _
  after_results
  try rfl
theorem objIdx_eq (c : Dev nD) : W1 m ρ c (Proc.devRef .tc main_v3) = Cert.ReferenceIdeal.Read.val_main_v3 (F := F) (m ((c : Thread nD τ).loc main_arg2)) := by
  show StableHlo.after hostOps0 (W0 m ρ c) (Proc.devRef .tc main_v3) = _
  after_results
  try rfl

/-! ## Between the stages: the pooling -/

/-- An array that the first stretch does not write and that is no window's array of the first stage is, after that
    stage, as launched. -/
theorem W2_launch (c : Dev nD) (r : Ref sig .tc) (h0 : r ∉ (hostOps0_W : List (Ref sig .tc))) (h1 : ∀ w, Pipeline.arrRef spec0 w ≠ r) :
    W2 m ρ c (Proc.devRef .tc r) = m ((c : Thread nD τ).loc r) :=
  (W2_of_ne m ρ c r h1).trans <| (W1_keep m ρ c r h0).trans rfl

open Cert.ReferenceIdeal.Read in
/-- The pooled features from the index array `x2` and the subject and object outputs `S`, `O` of the first stage:
    `S` scatter-added at the subject indices and `O` at the object indices into zeros, divided row by row by the
    number of times the row was hit, clamped below at one. -/
def pool (x2 : (⟨Cert.ReferenceIdeal.S100000x2, .i32⟩ : BufTy).Contents (Elt F))
    (S O : (⟨Cert.ReferenceIdeal.S100000x512, .f32⟩ : BufTy).Contents (Elt F)) : (⟨Cert.ReferenceIdeal.S50000x512, .f32⟩ : BufTy).Contents (Elt F) :=
  Host.divf
    (Host.scatterAdd Cert.ReferenceIdeal.scatter_S50000x512_S100000x1_S100000x512_1_0_0_1
      (Host.scatterAdd Cert.ReferenceIdeal.scatter_S50000x512_S100000x1_S100000x512_1_0_0_1 (val_main_v34 (F := F)) (val_main_v40 (F := F) x2) S)
      (val_main_v47 (F := F) x2) O)
    (val_main_v69 (F := F) x2)

open Cert.ReferenceIdeal.Read in
/-- The reference pools its own two column ranges with the same function. -/
theorem ref_pool (x0 : (⟨Cert.ReferenceIdeal.S50000x128, .f32⟩ : BufTy).Contents (Elt F)) (x1 : (⟨Cert.ReferenceIdeal.S100000x128, .f32⟩ : BufTy).Contents (Elt F))
    (x2 : (⟨Cert.ReferenceIdeal.S100000x2, .i32⟩ : BufTy).Contents (Elt F)) (x3 : (⟨Cert.ReferenceIdeal.S512x384, .f32⟩ : BufTy).Contents (Elt F))
    (x4 : (⟨Cert.ReferenceIdeal.S512, .f32⟩ : BufTy).Contents (Elt F)) (x5 : (⟨Cert.ReferenceIdeal.S1152x512, .f32⟩ : BufTy).Contents (Elt F))
    (x6 : (⟨Cert.ReferenceIdeal.S1152, .f32⟩ : BufTy).Contents (Elt F)) :
    val_main_v70 (F := F) x0 x1 x2 x3 x4 x5 x6 = pool x2 (val_main_v31 (F := F) x0 x1 x2 x3 x4 x5 x6) (val_main_v33 (F := F) x0 x1 x2 x3 x4 x5 x6) := by
  unfold val_main_v70 val_main_v48 val_main_v41 pool
  rfl

set_option maxHeartbeats 4000000 in
/-- The second stretch over ANY contents `W` whose two index columns are the reference's: the second stage's feature
    array is the pooling of `W`'s subject and object arrays, narrowed. -/
theorem pooled_of (W : Valuation τ sig (Elt F)) (x2 : (⟨Cert.ReferenceIdeal.S100000x2, .i32⟩ : BufTy).Contents (Elt F))
    (h1 : W (Proc.devRef .tc main_v1) = Cert.ReferenceIdeal.Read.val_main_v1 (F := F) x2)
    (h3 : W (Proc.devRef .tc main_v3) = Cert.ReferenceIdeal.Read.val_main_v3 (F := F) x2) :
    StableHlo.after hostOps1 W (Proc.devRef .tc main_v64)
      = truncf .bf16 (pool x2 (W (Proc.devRef .tc main_v26_0)) (W (Proc.devRef .tc main_v26_2))) bitsLt_bf16_f32 := by
  after_results
  rw [h1, h3]
  rfl

/-- The second stage's features: the pooling of the first stage's subject and object outputs, narrowed. -/
theorem pooled_eq (c : Dev nD) : V3 m ρ c main_v64
    = truncf .bf16 (pool (m ((c : Thread nD τ).loc main_arg2)) (W2 m ρ c (Proc.devRef .tc main_v26_0)) (W2 m ρ c (Proc.devRef .tc main_v26_2))) bitsLt_bf16_f32 :=
  pooled_of (W2 m ρ c) (m ((c : Thread nD τ).loc main_arg2))
    ((W2_of_ne m ρ c main_v1 (by decide)).trans (subjIdx_eq m ρ c))
    ((W2_of_ne m ρ c main_v3 (by decide)).trans (objIdx_eq m ρ c))

/-- The second stretch's weight and bias preparations over any contents `W`. -/
theorem wA2_of (W : Valuation τ sig (Elt F)) : StableHlo.after hostOps1 W (Proc.devRef .tc main_v66)
    = transpose S512x512 [1, 0] (truncf .bf16 (W (Proc.devRef .tc main_arg7)) bitsLt_bf16_f32) transposes_S512x512_S512x512_1_0 := by
  after_results
  try rfl
theorem bA2_of (W : Valuation τ sig (Elt F)) : StableHlo.after hostOps1 W (Proc.devRef .tc main_v69)
    = shapeCast _ (W (Proc.devRef .tc main_arg8)) shapeCasts_S512_S1x512 := by
  after_results
  try rfl
theorem wB2_of (W : Valuation τ sig (Elt F)) : StableHlo.after hostOps1 W (Proc.devRef .tc main_v68)
    = transpose S512x128 [1, 0] (truncf .bf16 (W (Proc.devRef .tc main_arg9)) bitsLt_bf16_f32) transposes_S128x512_S512x128_1_0 := by
  after_results
  try rfl
theorem bB2_of (W : Valuation τ sig (Elt F)) : StableHlo.after hostOps1 W (Proc.devRef .tc main_v70)
    = shapeCast _ (W (Proc.devRef .tc main_arg10)) shapeCasts_S128_S1x128 := by
  after_results
  try rfl

theorem wA2_eq (c : Dev nD) : V3 m ρ c main_v66
    = transpose S512x512 [1, 0] (truncf .bf16 (m ((c : Thread nD τ).loc main_arg7)) bitsLt_bf16_f32) transposes_S512x512_S512x512_1_0 :=
  (wA2_of (W2 m ρ c)).trans (by rw [W2_launch m ρ c main_arg7 (by decide) (by decide)])
theorem bA2_eq (c : Dev nD) : V3 m ρ c main_v69 = shapeCast _ (m ((c : Thread nD τ).loc main_arg8)) shapeCasts_S512_S1x512 :=
  (bA2_of (W2 m ρ c)).trans (by rw [W2_launch m ρ c main_arg8 (by decide) (by decide)])
theorem wB2_eq (c : Dev nD) : V3 m ρ c main_v68
    = transpose S512x128 [1, 0] (truncf .bf16 (m ((c : Thread nD τ).loc main_arg9)) bitsLt_bf16_f32) transposes_S128x512_S512x128_1_0 :=
  (wB2_of (W2 m ρ c)).trans (by rw [W2_launch m ρ c main_arg9 (by decide) (by decide)])
theorem bB2_eq (c : Dev nD) : V3 m ρ c main_v70 = shapeCast _ (m ((c : Thread nD τ).loc main_arg10)) shapeCasts_S128_S1x128 :=
  (bB2_of (W2 m ρ c)).trans (by rw [W2_launch m ρ c main_arg10 (by decide) (by decide)])

end Cert.KernelIdeal.HostIn

end
-- ==== Proof.Spec.lean ====
/-
  The mathematics both programs compute on one row of features: a dense layer is the row times the transposed
  weight matrix, plus the bias, clamped below at zero; each of the two stages is two such layers in a row. Over
  the extended reals, with the weight matrix indexed (output feature, input feature) as the arguments store it.
-/
import Idealize.ShloMosaic.PureOps.Ideal
import Idealize.ShloMosaic.Lib.ValueIdx

noncomputable section

namespace Cert.Spec

open Idealize.ShloMosaic

/-- The float word of all zero bits, as an extended real (it is `0`; nothing below needs to know). -/
abbrev zeroWord : EReal := Ideal.ofBits .f32 0x00000000#32

/-- One dense layer on one row `x`: entry `j` is `max (∑ₖ x k · W j k + b j) 0`. -/
def dense {K N : ℕ} (x : Fin K → EReal) (W : Fin N → Fin K → EReal) (b : Fin N → EReal) : Fin N → EReal :=
  fun j => max ((∑ k : Fin K, x k * W j k) + b j) zeroWord

/-- Two dense layers in a row. -/
def twoLayers {K H N : ℕ} (x : Fin K → EReal) (Wa : Fin H → Fin K → EReal) (ba : Fin H → EReal)
    (Wb : Fin N → Fin H → EReal) (bb : Fin N → EReal) : Fin N → EReal :=
  dense (dense x Wa ba) Wb bb

theorem dense_congr {K N : ℕ} {x x' : Fin K → EReal} {W W' : Fin N → Fin K → EReal} {b b' : Fin N → EReal}
    (hx : ∀ k, x k = x' k) (hW : ∀ j k, W j k = W' j k) (hb : ∀ j, b j = b' j) : dense x W b = dense x' W' b' := by
  have e1 : x = x' := funext hx
  have e2 : W = W' := funext fun j => funext (hW j)
  have e3 : b = b' := funext hb
  rw [e1, e2, e3]

end Cert.Spec

end
-- ==== Proof.KernelIdeal.Mlp1Value.lean ====
/-
  What the first dense stage's body computes on one block, entry by entry, over the extended reals: row `p` of
  the stored values is two dense layers applied to row `p` of the input block, the weights read transposed (the
  host hands the body `Wᵀ`), the biases read from their one row; the three stores are column ranges of that row.
-/
import proofs.«112442_j455266533448_1_alg».proof.Proof.Gen.KernelIdeal.Skeleton
import proofs.«112442_j455266533448_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Mlp1

open Idealize.ShloMosaic Idealize.ShloMosaic.ValueIdx
open Cert.KernelIdeal.Gen

/-- One dense layer read at an entry: a product into the zero accumulator over a one-axis contraction (`hl0 … hr1`:
    which coordinates of the operands the dimension numbers read), plus the one bias row, clamped below at the zero
    word, is `Spec.dense` of row `p` of the left operand against the right operand read transposed. -/
private theorem dense_at {M K N : ℕ} {φ₁ φ₂ : FTy}
    (d : DotDims (⟨2, ![M, K]⟩ : Shape) ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (y : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (p : Fin M) (j : Fin N) :
    maximumf (addf (matmul d none y w (constant (F := Ideal) ⟨2, ![M, N]⟩ .f32 0x00000000#32)) (broadcastTo ⟨2, ![M, N]⟩ b h))
        (broadcast ⟨2, ![M, N]⟩ (Scalar.ofBits (F := Ideal) .f32 0x00000000#32)) (ix2 p j)
      = Spec.dense (fun l : Fin K => y (ix2 p l)) (fun (j : Fin N) (l : Fin K) => w (ix2 l j)) (fun j : Fin N => b (ix2 (0 : Fin 1) j)) j := by
  show max (matmul d none y w (constant (F := Ideal) ⟨2, ![M, N]⟩ .f32 0x00000000#32) (ix2 p j) + broadcastTo ⟨2, ![M, N]⟩ b h (ix2 p j)) Spec.zeroWord = _
  simp only [matmul]
  rw [Ideal.matmul_constant_zero_apply, broadcastTo_1b_ab_apply, ← Equiv.sum_comp (ValueIdx.contrEquiv1 d K hr hs).symm]
  unfold Spec.dense
  refine congrArg (fun t => max (t + b (ix2 (0 : Fin 1) j)) Spec.zeroWord) (Finset.sum_congr rfl fun k _ => ?_)
  have hk := ValueIdx.contrEquiv1_symm_val d K hr hs k
  have el : d.lhsIdx (ix2 p j) ((ValueIdx.contrEquiv1 d K hr hs).symm k) = ix2 p k := funext fun a => Fin.ext (by
    match a with
    | ⟨0, _⟩ => exact hl0 _ _
    | ⟨1, _⟩ => exact (hl1 _ _).trans hk)
  have er : d.rhsIdx (ix2 p j) ((ValueIdx.contrEquiv1 d K hr hs).symm k) = ix2 k j := funext fun a => Fin.ext (by
    match a with
    | ⟨0, _⟩ => exact (hr0 _ _).trans hk
    | ⟨1, _⟩ => exact hr1 _ _)
  rw [el, er]

private theorem lhs_a_0 (i : S1000x512.Idx) (q : dot_S1000x384_S384x512_S1000x512_1_0_0_1_n_n.contr.Idx) :
    (dot_S1000x384_S384x512_S1000x512_1_0_0_1_n_n.lhsIdx i q 0).val = (i 0).val := by
  unfold DotDims.lhsIdx
  rw [dif_neg (show ¬(0 : Fin S1000x384.rank) ∈ dot_S1000x384_S384x512_S1000x512_1_0_0_1_n_n.lhsBatch by decide), dif_pos (show (0 : Fin S1000x384.rank) ∈ dot_S1000x384_S384x512_S1000x512_1_0_0_1_n_n.lhsNonContracting by decide)]
  rfl
private theorem lhs_a_1 (i : S1000x512.Idx) (q : dot_S1000x384_S384x512_S1000x512_1_0_0_1_n_n.contr.Idx) :
    (dot_S1000x384_S384x512_S1000x512_1_0_0_1_n_n.lhsIdx i q 1).val = (q ⟨0, by decide⟩).val :=
  dot_S1000x384_S384x512_S1000x512_1_0_0_1_n_n.lhsIdx_val_of_single rfl i q
private theorem rhs_a_0 (i : S1000x512.Idx) (q : dot_S1000x384_S384x512_S1000x512_1_0_0_1_n_n.contr.Idx) :
    (dot_S1000x384_S384x512_S1000x512_1_0_0_1_n_n.rhsIdx i q 0).val = (q ⟨0, by decide⟩).val :=
  dot_S1000x384_S384x512_S1000x512_1_0_0_1_n_n.rhsIdx_val_of_single rfl i q
private theorem rhs_a_1 (i : S1000x512.Idx) (q : dot_S1000x384_S384x512_S1000x512_1_0_0_1_n_n.contr.Idx) :
    (dot_S1000x384_S384x512_S1000x512_1_0_0_1_n_n.rhsIdx i q 1).val = (i 1).val := by
  unfold DotDims.rhsIdx
  rw [dif_neg (show ¬(1 : Fin S384x512.rank) ∈ dot_S1000x384_S384x512_S1000x512_1_0_0_1_n_n.rhsBatch by decide), dif_pos (show (1 : Fin S384x512.rank) ∈ dot_S1000x384_S384x512_S1000x512_1_0_0_1_n_n.rhsNonContracting by decide)]
  rfl

private theorem lhs_b_0 (i : S1000x1152.Idx) (q : dot_S1000x512_S512x1152_S1000x1152_1_0_0_1_n_n.contr.Idx) :
    (dot_S1000x512_S512x1152_S1000x1152_1_0_0_1_n_n.lhsIdx i q 0).val = (i 0).val := by
  unfold DotDims.lhsIdx
  rw [dif_neg (show ¬(0 : Fin S1000x512.rank) ∈ dot_S1000x512_S512x1152_S1000x1152_1_0_0_1_n_n.lhsBatch by decide), dif_pos (show (0 : Fin S1000x512.rank) ∈ dot_S1000x512_S512x1152_S1000x1152_1_0_0_1_n_n.lhsNonContracting by decide)]
  rfl
private theorem lhs_b_1 (i : S1000x1152.Idx) (q : dot_S1000x512_S512x1152_S1000x1152_1_0_0_1_n_n.contr.Idx) :
    (dot_S1000x512_S512x1152_S1000x1152_1_0_0_1_n_n.lhsIdx i q 1).val = (q ⟨0, by decide⟩).val :=
  dot_S1000x512_S512x1152_S1000x1152_1_0_0_1_n_n.lhsIdx_val_of_single rfl i q
private theorem rhs_b_0 (i : S1000x1152.Idx) (q : dot_S1000x512_S512x1152_S1000x1152_1_0_0_1_n_n.contr.Idx) :
    (dot_S1000x512_S512x1152_S1000x1152_1_0_0_1_n_n.rhsIdx i q 0).val = (q ⟨0, by decide⟩).val :=
  dot_S1000x512_S512x1152_S1000x1152_1_0_0_1_n_n.rhsIdx_val_of_single rfl i q
private theorem rhs_b_1 (i : S1000x1152.Idx) (q : dot_S1000x512_S512x1152_S1000x1152_1_0_0_1_n_n.contr.Idx) :
    (dot_S1000x512_S512x1152_S1000x1152_1_0_0_1_n_n.rhsIdx i q 1).val = (i 1).val := by
  unfold DotDims.rhsIdx
  rw [dif_neg (show ¬(1 : Fin S512x1152.rank) ∈ dot_S1000x512_S512x1152_S1000x1152_1_0_0_1_n_n.rhsBatch by decide), dif_pos (show (1 : Fin S512x1152.rank) ∈ dot_S1000x512_S512x1152_S1000x1152_1_0_0_1_n_n.rhsNonContracting by decide)]
  rfl

/-- Entry `(p, j)` of the second layer's clamped output is `Spec.twoLayers` of row `p` of the block. -/
theorem layers_at (x : Vec Ideal S1000x384 .bf16) (wa : Vec Ideal S384x512 .bf16) (ba : Vec Ideal S1x512 .f32)
    (wb : Vec Ideal S512x1152 .bf16) (bb : Vec Ideal S1x1152 .f32) (p : Fin 1000) (j : Fin 1152) :
    k0_pay1 (F := Ideal) x wa ba wb bb (ix2 p j) =
      Spec.twoLayers (fun l : Fin 384 => x (ix2 p l)) (fun (k : Fin 512) (l : Fin 384) => wa (ix2 l k)) (fun k : Fin 512 => ba (ix2 (0 : Fin 1) k))
        (fun (j : Fin 1152) (k : Fin 512) => wb (ix2 k j)) (fun j : Fin 1152 => bb (ix2 (0 : Fin 1) j)) j := by
  unfold k0_pay1
  simp only [shapeCast_self]
  unfold Spec.twoLayers
  refine (dense_at dot_S1000x512_S512x1152_S1000x1152_1_0_0_1_n_n rfl rfl lhs_b_0 lhs_b_1 rhs_b_0 rhs_b_1 _ wb bb broadcasts_S1x1152_S1000x1152 p j).trans ?_
  refine congrFun (Spec.dense_congr (fun k => ?_) (fun _ _ => rfl) (fun _ => rfl)) j
  exact dense_at dot_S1000x384_S384x512_S1000x512_1_0_0_1_n_n rfl rfl lhs_a_0 lhs_a_1 rhs_a_0 rhs_a_1 x wa ba broadcasts_S1x512_S1000x512 p k

/-- The subject columns are columns `0 … 511` of that output. -/
theorem subj_at (x : Vec Ideal S1000x384 .bf16) (wa : Vec Ideal S384x512 .bf16) (ba : Vec Ideal S1x512 .f32)
    (wb : Vec Ideal S512x1152 .bf16) (bb : Vec Ideal S1x1152 .f32) (p : Fin 1000) (j : Fin 512) :
    k0_pay2 (F := Ideal) x wa ba wb bb (ix2 p j) = k0_pay1 (F := Ideal) x wa ba wb bb (ix2 p ⟨j.val, by omega⟩) := by
  unfold k0_pay2
  refine extractStridedSlice_apply _ _ slices_S1000x1152_o0_0_S1000x512 (ix2 p j) _ fun a => ?_
  match a with
  | ⟨0, _⟩ => exact (Nat.zero_add _).symm
  | ⟨1, _⟩ => exact (Nat.zero_add _).symm

/-- The predicate columns are columns `512 … 639`. -/
theorem pred_at (x : Vec Ideal S1000x384 .bf16) (wa : Vec Ideal S384x512 .bf16) (ba : Vec Ideal S1x512 .f32)
    (wb : Vec Ideal S512x1152 .bf16) (bb : Vec Ideal S1x1152 .f32) (p : Fin 1000) (j : Fin 128) :
    k0_pay3 (F := Ideal) x wa ba wb bb (ix2 p j) = k0_pay1 (F := Ideal) x wa ba wb bb (ix2 p ⟨512 + j.val, by omega⟩) := by
  unfold k0_pay3
  refine extractStridedSlice_apply _ _ slices_S1000x1152_o0_512_S1000x128 (ix2 p j) _ fun a => ?_
  match a with
  | ⟨0, _⟩ => exact (Nat.zero_add _).symm
  | ⟨1, _⟩ => rfl

/-- The object columns are columns `640 … 1151`. -/
theorem obj_at (x : Vec Ideal S1000x384 .bf16) (wa : Vec Ideal S384x512 .bf16) (ba : Vec Ideal S1x512 .f32)
    (wb : Vec Ideal S512x1152 .bf16) (bb : Vec Ideal S1x1152 .f32) (p : Fin 1000) (j : Fin 512) :
    k0_pay4 (F := Ideal) x wa ba wb bb (ix2 p j) = k0_pay1 (F := Ideal) x wa ba wb bb (ix2 p ⟨640 + j.val, by omega⟩) := by
  unfold k0_pay4
  refine extractStridedSlice_apply _ _ slices_S1000x1152_o0_640_S1000x512 (ix2 p j) _ fun a => ?_
  match a with
  | ⟨0, _⟩ => exact (Nat.zero_add _).symm
  | ⟨1, _⟩ => rfl

end Cert.KernelIdeal.Mlp1

end
-- ==== Proof.KernelIdeal.Mlp1Array.lean ====
/-
  From blocks to arrays, first dense stage, over the extended reals: point `t` of the grid writes back rows
  `1000 t … 1000 t + 999` of each of the three result arrays, the 100 points tile the 100000 rows, and row `r` of
  what is written is two dense layers applied to row `r` of the stage's input array, whatever block it falls in.
  So after the stage each result array is, entry by entry, a column range of `row V c r`.
-/
import proofs.«112442_j455266533448_1_alg».proof.Proof.KernelIdeal.Mlp1Body
import proofs.«112442_j455266533448_1_alg».proof.Proof.KernelIdeal.Mlp1Value

set_option maxRecDepth 16384

noncomputable section

namespace Cert.KernelIdeal.Mlp1

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-- The stage's five input arrays as it finds them, at their literal types. -/
abbrev feats (c : Dev nD) : Vec Ideal S100000x384 .bf16 := V c main_v19
abbrev wA (c : Dev nD) : Vec Ideal S384x512 .bf16 := V c main_v21
abbrev bA (c : Dev nD) : Vec Ideal S1x512 .f32 := V c main_v24
abbrev wB (c : Dev nD) : Vec Ideal S512x1152 .bf16 := V c main_v23
abbrev bB (c : Dev nD) : Vec Ideal S1x1152 .f32 := V c main_v25

/-- Row `r` of the second layer's clamped output, all 1152 columns. -/
def row (c : Dev nD) (r : Fin 100000) : Fin 1152 → EReal :=
  Spec.twoLayers (fun l : Fin 384 => feats V c (ix2 r l)) (fun (k : Fin 512) (l : Fin 384) => wA V c (ix2 l k)) (fun k : Fin 512 => bA V c (ix2 (0 : Fin 1) k))
    (fun (j : Fin 1152) (k : Fin 512) => wB V c (ix2 k j)) (fun j : Fin 1152 => bB V c (ix2 (0 : Fin 1) j))

/-- The two zero offsets, however spelt. -/
theorem hz : (![0, 0] : Fin 2 → Nat) = fun _ => 0 := funext fun a => by fin_cases a <;> rfl

/-- The printed index maps, decided once over the grid: the row-blocked windows (the features and the three
    results) sit at block `(t, 0)` at point `t`, the weights' and biases' at block `(0, 0)` throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## Each input block, read where it lies in its array -/

/-- Row `p` of the features' block at point `t` is row `1000 t + p` of the features. -/
theorem blk0_apply (c : Dev nD) (t : Fin cfg0.N) (p : Fin 1000) (l : Fin 384) (r : Fin 100000) (hr : r.val = 1000 * t.val + p.val) :
    (blk V c 0 t : Vec Ideal S1000x384 .bf16) (ix2 p l) = feats V c (ix2 r l) := by
  obtain ⟨e0, e1, -⟩ := idx_facts t
  unfold blk
  rw [View.read_apply]
  show V c main_v19 (((cfg0.win 0).blk t).view.emb (ix2 p l)) = V c main_v19 (ix2 r l)
  refine congrArg _ ?_
  funext a; apply Fin.ext
  match a with
  | ⟨0, _⟩ => show win0_0.index t (0 : Fin 2) * 1000 + 1 * p.val = r.val; rw [e0, hr]; omega
  | ⟨1, _⟩ => show win0_0.index t (1 : Fin 2) * 384 + 1 * l.val = l.val; rw [e1]; omega

/-- The first layer's weights' block is the whole array, at every point. -/
theorem blk1_apply (c : Dev nD) (t : Fin cfg0.N) (l : Fin 384) (k : Fin 512) :
    (blk V c 1 t : Vec Ideal S384x512 .bf16) (ix2 l k) = wA V c (ix2 l k) := by
  obtain ⟨-, -, e0, e1, -⟩ := idx_facts t
  unfold blk
  rw [View.read_apply]
  show V c main_v21 (((cfg0.win 1).blk t).view.emb (ix2 l k)) = V c main_v21 (ix2 l k)
  refine congrArg _ ?_
  funext a; apply Fin.ext
  match a with
  | ⟨0, _⟩ => show win0_1.index t (0 : Fin 2) * 384 + 1 * l.val = l.val; rw [e0]; omega
  | ⟨1, _⟩ => show win0_1.index t (1 : Fin 2) * 512 + 1 * k.val = k.val; rw [e1]; omega

/-- The first layer's bias' block is the whole one-row array. -/
theorem blk2_apply (c : Dev nD) (t : Fin cfg0.N) (k : Fin 512) :
    (blk V c 2 t : Vec Ideal S1x512 .f32) (ix2 (0 : Fin 1) k) = bA V c (ix2 (0 : Fin 1) k) := by
  obtain ⟨-, -, -, -, e0, e1, -⟩ := idx_facts t
  unfold blk
  rw [View.read_apply]
  show V c main_v24 (((cfg0.win 2).blk t).view.emb (ix2 (0 : Fin 1) k)) = V c main_v24 (ix2 (0 : Fin 1) k)
  refine congrArg _ ?_
  funext a; apply Fin.ext
  match a with
  | ⟨0, _⟩ => show win0_2.index t (0 : Fin 2) * 1 + 1 * 0 = 0; rw [e0]
  | ⟨1, _⟩ => show win0_2.index t (1 : Fin 2) * 512 + 1 * k.val = k.val; rw [e1]; omega

/-- The second layer's weights' block is the whole array. -/
theorem blk3_apply (c : Dev nD) (t : Fin cfg0.N) (k : Fin 512) (j : Fin 1152) :
    (blk V c 3 t : Vec Ideal S512x1152 .bf16) (ix2 k j) = wB V c (ix2 k j) := by
  obtain ⟨-, -, -, -, -, -, e0, e1, -⟩ := idx_facts t
  unfold blk
  rw [View.read_apply]
  show V c main_v23 (((cfg0.win 3).blk t).view.emb (ix2 k j)) = V c main_v23 (ix2 k j)
  refine congrArg _ ?_
  funext a; apply Fin.ext
  match a with
  | ⟨0, _⟩ => show win0_3.index t (0 : Fin 2) * 512 + 1 * k.val = k.val; rw [e0]; omega
  | ⟨1, _⟩ => show win0_3.index t (1 : Fin 2) * 1152 + 1 * j.val = j.val; rw [e1]; omega

/-- The second layer's bias' block is the whole one-row array. -/
theorem blk4_apply (c : Dev nD) (t : Fin cfg0.N) (j : Fin 1152) :
    (blk V c 4 t : Vec Ideal S1x1152 .f32) (ix2 (0 : Fin 1) j) = bB V c (ix2 (0 : Fin 1) j) := by
  obtain ⟨-, -, -, -, -, -, -, -, e0, e1, -⟩ := idx_facts t
  unfold blk
  rw [View.read_apply]
  show V c main_v25 (((cfg0.win 4).blk t).view.emb (ix2 (0 : Fin 1) j)) = V c main_v25 (ix2 (0 : Fin 1) j)
  refine congrArg _ ?_
  funext a; apply Fin.ext
  match a with
  | ⟨0, _⟩ => show win0_4.index t (0 : Fin 2) * 1 + 1 * 0 = 0; rw [e0]
  | ⟨1, _⟩ => show win0_4.index t (1 : Fin 2) * 1152 + 1 * j.val = j.val; rw [e1]; omega

/-! ## What a point stores, as rows of the whole arrays -/

/-- Two dense layers on equal data are equal. -/
theorem twoLayers_congr {K H N : ℕ} {x x' : Fin K → EReal} {Wa Wa' : Fin H → Fin K → EReal} {ba ba' : Fin H → EReal}
    {Wb Wb' : Fin N → Fin H → EReal} {bb bb' : Fin N → EReal}
    (hx : ∀ l, x l = x' l) (hWa : ∀ k l, Wa k l = Wa' k l) (hba : ∀ k, ba k = ba' k)
    (hWb : ∀ j k, Wb j k = Wb' j k) (hbb : ∀ j, bb j = bb' j) :
    Spec.twoLayers x Wa ba Wb bb = Spec.twoLayers x' Wa' ba' Wb' bb' := by
  have e1 : x = x' := funext hx
  have e2 : Wa = Wa' := funext fun k => funext (hWa k)
  have e3 : ba = ba' := funext hba
  have e4 : Wb = Wb' := funext fun j => funext (hWb j)
  have e5 : bb = bb' := funext hbb
  rw [e1, e2, e3, e4, e5]

/-- Entry `(p, j)` of the second layer's clamped output at point `t` is entry `j` of `row` at row `1000 t + p`:
    the point's features are those rows, and the weights and biases it is handed are the whole arrays. -/
theorem pay1_blk (c : Dev nD) (t : Fin cfg0.N) (p : Fin 1000) (j : Fin 1152) (r : Fin 100000) (hr : r.val = 1000 * t.val + p.val) :
    k0_pay1 (F := Ideal) (blk V c 0 t) (blk V c 1 t) (blk V c 2 t) (blk V c 3 t) (blk V c 4 t) (ix2 p j) = row V c r j := by
  refine (layers_at _ _ _ _ _ p j).trans ?_
  unfold row
  exact congrFun (twoLayers_congr (fun l => blk0_apply V c t p l r hr) (fun k l => blk1_apply V c t l k)
    (fun k => blk2_apply V c t k) (fun j k => blk3_apply V c t k j) (fun j => blk4_apply V c t j)) j

/-! ## Window 5: the subject columns -/

/-- What window 5's array ends holding: columns `0 … 511` of `row`, row by row. -/
def subjCols (c : Dev nD) : S100000x512.Idx → EReal :=
  fun i => row V c ⟨(i 0).val, idx2_lt0 i⟩ ⟨(i 1).val, by have := idx2_lt1 i; omega⟩

/-- What point `t` writes back to window 5 is block `t` of `subjCols`. -/
theorem flushed_subj (c : Dev nD) (t : Fin cfg0.N) :
    (dat V c).flushed 5 t = ((cfg0.win 5).blk t).view.read (Elt Ideal) (subjCols V c) := by
  show (cfg0.win 5).cut (grid0.coords t) ((dat V c).after 5 t) = _
  rw [after5]
  unfold outS
  rw [View.canon_unit_zero hz]
  simp only [View.ld_unit_zero (S := S1000x384) hz, View.ld_unit_zero (S := S384x512) hz, View.ld_unit_zero (S := S1x512) hz,
    View.ld_unit_zero (S := S512x1152) hz, View.ld_unit_zero (S := S1x1152) hz]
  have key : ∀ y : S1000x512.Idx, k0_pay2 (F := Ideal) (blk V c 0 t) (blk V c 1 t) (blk V c 2 t) (blk V c 3 t) (blk V c 4 t) y
      = subjCols V c (((cfg0.win 5).blk t).view.emb y) := by
    intro y
    obtain ⟨p, q, rfl⟩ : ∃ (p : Fin 1000) (q : Fin 512), y = ix2 p q := ⟨y 0, y 1, eq_ix2 y⟩
    obtain ⟨-, -, -, -, -, -, -, -, -, -, e0, e1, -⟩ := idx_facts t
    have h0 : ((((cfg0.win 5).blk t).view.emb (ix2 p q)) 0).val = 1000 * t.val + p.val := by
      show win0_5.index t (0 : Fin 2) * 1000 + 1 * p.val = _; rw [e0]; omega
    have h1 : ((((cfg0.win 5).blk t).view.emb (ix2 p q)) 1).val = q.val := by
      show win0_5.index t (1 : Fin 2) * 512 + 1 * q.val = _; rw [e1]; omega
    refine (subj_at _ _ _ _ _ p q).trans ?_
    refine (pay1_blk V c t p _ ⟨_, _⟩ h0).trans ?_
    exact congrArg (row V c _) (Fin.ext (by show q.val = _; rw [h1]))
  exact funext key

/-- An index of window 5's array is in point `t`'s block iff each coordinate is in the block's range on its axis. -/
theorem mem_blk_subj (t : Fin cfg0.N) (i : S100000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v26_0).slice (win0_5.rect t)).set ↔ _
  rw [View.set_slice_whole, Rect.mem_set_unit]
  exact Iff.rfl

/-- The 100 blocks tile the array: row `r` is in the block of point `r / 1000`. -/
theorem cover_subj (i : S100000x512.Idx) : ∃ t : Fin cfg0.N, (cfg0.win 5).flush t = true ∧ i ∈ ((cfg0.win 5).blk t).view.set := by
  have hi0 : (i 0).val < 100000 := idx2_lt0 i
  have hi1 : (i 1).val < 512 := idx2_lt1 i
  obtain ⟨t, ht⟩ : ∃ t : Fin cfg0.N, t.val = (i 0).val / 1000 := ⟨⟨(i 0).val / 1000, by show _ < 100; omega⟩, rfl⟩
  refine ⟨t, flush0_5 t, ?_⟩
  rw [mem_blk_subj]
  obtain ⟨-, -, -, -, -, -, -, -, -, -, e0, e1, -⟩ := idx_facts t
  intro a
  match a with
  | ⟨0, _⟩ => show win0_5.index t (0 : Fin 2) * 1000 ≤ (i 0).val ∧ (i 0).val < win0_5.index t (0 : Fin 2) * 1000 + 1000; rw [e0, ht]; omega
  | ⟨1, _⟩ => show win0_5.index t (1 : Fin 2) * 512 ≤ (i 1).val ∧ (i 1).val < win0_5.index t (1 : Fin 2) * 512 + 512; rw [e1]; omega

/-- So window 5's array ends holding `subjCols`. -/
theorem final_subj (c : Dev nD) : (dat V c).arrAt 5 cfg0.N = subjCols V c :=
  (dat V c).arrAt_eq_of_cover 5 (subjCols V c) (fun t _ => flushed_subj V c t) cover_subj

/-- The subject result array (window 5) after the stage. -/
theorem subj_array (c : Dev nD) (r : Fin 100000) (j : Fin 512) :
    ((dat V c).arrAt 5 cfg0.N : S100000x512.Idx → EReal) (ix2 r j) = row V c r ⟨j.val, by omega⟩ := by
  rw [final_subj]
  rfl

/-! ## Window 6: the predicate columns -/

/-- What window 6's array ends holding: columns `512 … 639` of `row`, row by row. -/
def predCols (c : Dev nD) : S100000x128.Idx → EReal :=
  fun i => row V c ⟨(i 0).val, idx2_lt0 i⟩ ⟨512 + (i 1).val, by have := idx2_lt1 i; omega⟩

/-- What point `t` writes back to window 6 is block `t` of `predCols`. -/
theorem flushed_pred (c : Dev nD) (t : Fin cfg0.N) :
    (dat V c).flushed 6 t = ((cfg0.win 6).blk t).view.read (Elt Ideal) (predCols V c) := by
  show (cfg0.win 6).cut (grid0.coords t) ((dat V c).after 6 t) = _
  rw [after6]
  unfold outP
  rw [View.canon_unit_zero hz]
  simp only [View.ld_unit_zero (S := S1000x384) hz, View.ld_unit_zero (S := S384x512) hz, View.ld_unit_zero (S := S1x512) hz,
    View.ld_unit_zero (S := S512x1152) hz, View.ld_unit_zero (S := S1x1152) hz]
  have key : ∀ y : S1000x128.Idx, k0_pay3 (F := Ideal) (blk V c 0 t) (blk V c 1 t) (blk V c 2 t) (blk V c 3 t) (blk V c 4 t) y
      = predCols V c (((cfg0.win 6).blk t).view.emb y) := by
    intro y
    obtain ⟨p, q, rfl⟩ : ∃ (p : Fin 1000) (q : Fin 128), y = ix2 p q := ⟨y 0, y 1, eq_ix2 y⟩
    obtain ⟨-, -, -, -, -, -, -, -, -, -, -, -, e0, e1, -⟩ := idx_facts t
    have h0 : ((((cfg0.win 6).blk t).view.emb (ix2 p q)) 0).val = 1000 * t.val + p.val := by
      show win0_6.index t (0 : Fin 2) * 1000 + 1 * p.val = _; rw [e0]; omega
    have h1 : ((((cfg0.win 6).blk t).view.emb (ix2 p q)) 1).val = q.val := by
      show win0_6.index t (1 : Fin 2) * 128 + 1 * q.val = _; rw [e1]; omega
    refine (pred_at _ _ _ _ _ p q).trans ?_
    refine (pay1_blk V c t p _ ⟨_, _⟩ h0).trans ?_
    exact congrArg (row V c _) (Fin.ext (by show 512 + q.val = 512 + _; rw [h1]))
  exact funext key

/-- An index of window 6's array is in point `t`'s block iff each coordinate is in the block's range on its axis. -/
theorem mem_blk_pred (t : Fin cfg0.N) (i : S100000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v26_1).slice (win0_6.rect t)).set ↔ _
  rw [View.set_slice_whole, Rect.mem_set_unit]
  exact Iff.rfl

/-- The 100 blocks tile the array: row `r` is in the block of point `r / 1000`. -/
theorem cover_pred (i : S100000x128.Idx) : ∃ t : Fin cfg0.N, (cfg0.win 6).flush t = true ∧ i ∈ ((cfg0.win 6).blk t).view.set := by
  have hi0 : (i 0).val < 100000 := idx2_lt0 i
  have hi1 : (i 1).val < 128 := idx2_lt1 i
  obtain ⟨t, ht⟩ : ∃ t : Fin cfg0.N, t.val = (i 0).val / 1000 := ⟨⟨(i 0).val / 1000, by show _ < 100; omega⟩, rfl⟩
  refine ⟨t, flush0_6 t, ?_⟩
  rw [mem_blk_pred]
  obtain ⟨-, -, -, -, -, -, -, -, -, -, -, -, e0, e1, -⟩ := idx_facts t
  intro a
  match a with
  | ⟨0, _⟩ => show win0_6.index t (0 : Fin 2) * 1000 ≤ (i 0).val ∧ (i 0).val < win0_6.index t (0 : Fin 2) * 1000 + 1000; rw [e0, ht]; omega
  | ⟨1, _⟩ => show win0_6.index t (1 : Fin 2) * 128 ≤ (i 1).val ∧ (i 1).val < win0_6.index t (1 : Fin 2) * 128 + 128; rw [e1]; omega

/-- So window 6's array ends holding `predCols`. -/
theorem final_pred (c : Dev nD) : (dat V c).arrAt 6 cfg0.N = predCols V c :=
  (dat V c).arrAt_eq_of_cover 6 (predCols V c) (fun t _ => flushed_pred V c t) cover_pred

/-- The predicate result array (window 6) after the stage. -/
theorem pred_array (c : Dev nD) (r : Fin 100000) (j : Fin 128) :
    ((dat V c).arrAt 6 cfg0.N : S100000x128.Idx → EReal) (ix2 r j) = row V c r ⟨512 + j.val, by omega⟩ := by
  rw [final_pred]
  rfl

/-! ## Window 7: the object columns -/

/-- What window 7's array ends holding: columns `640 … 1151` of `row`, row by row. -/
def objCols (c : Dev nD) : S100000x512.Idx → EReal :=
  fun i => row V c ⟨(i 0).val, idx2_lt0 i⟩ ⟨640 + (i 1).val, by have := idx2_lt1 i; omega⟩

/-- What point `t` writes back to window 7 is block `t` of `objCols`. -/
theorem flushed_obj (c : Dev nD) (t : Fin cfg0.N) :
    (dat V c).flushed 7 t = ((cfg0.win 7).blk t).view.read (Elt Ideal) (objCols V c) := by
  show (cfg0.win 7).cut (grid0.coords t) ((dat V c).after 7 t) = _
  rw [after7]
  unfold outO
  rw [View.canon_unit_zero hz]
  simp only [View.ld_unit_zero (S := S1000x384) hz, View.ld_unit_zero (S := S384x512) hz, View.ld_unit_zero (S := S1x512) hz,
    View.ld_unit_zero (S := S512x1152) hz, View.ld_unit_zero (S := S1x1152) hz]
  have key : ∀ y : S1000x512.Idx, k0_pay4 (F := Ideal) (blk V c 0 t) (blk V c 1 t) (blk V c 2 t) (blk V c 3 t) (blk V c 4 t) y
      = objCols V c (((cfg0.win 7).blk t).view.emb y) := by
    intro y
    obtain ⟨p, q, rfl⟩ : ∃ (p : Fin 1000) (q : Fin 512), y = ix2 p q := ⟨y 0, y 1, eq_ix2 y⟩
    obtain ⟨-, -, -, -, -, -, -, -, -, -, -, -, -, -, e0, e1⟩ := idx_facts t
    have h0 : ((((cfg0.win 7).blk t).view.emb (ix2 p q)) 0).val = 1000 * t.val + p.val := by
      show win0_7.index t (0 : Fin 2) * 1000 + 1 * p.val = _; rw [e0]; omega
    have h1 : ((((cfg0.win 7).blk t).view.emb (ix2 p q)) 1).val = q.val := by
      show win0_7.index t (1 : Fin 2) * 512 + 1 * q.val = _; rw [e1]; omega
    refine (obj_at _ _ _ _ _ p q).trans ?_
    refine (pay1_blk V c t p _ ⟨_, _⟩ h0).trans ?_
    exact congrArg (row V c _) (Fin.ext (by show 640 + q.val = 640 + _; rw [h1]))
  exact funext key

/-- An index of window 7's array is in point `t`'s block iff each coordinate is in the block's range on its axis. -/
theorem mem_blk_obj (t : Fin cfg0.N) (i : S100000x512.Idx) :
    i ∈ ((cfg0.win 7).blk t).view.set ↔ ∀ a : Fin 2, win0_7.index t a * S1000x512.size a ≤ (i a).val ∧ (i a).val < win0_7.index t a * S1000x512.size a + S1000x512.size a := by
  show i ∈ ((View.whole main_v26_2).slice (win0_7.rect t)).set ↔ _
  rw [View.set_slice_whole, Rect.mem_set_unit]
  exact Iff.rfl

/-- The 100 blocks tile the array: row `r` is in the block of point `r / 1000`. -/
theorem cover_obj (i : S100000x512.Idx) : ∃ t : Fin cfg0.N, (cfg0.win 7).flush t = true ∧ i ∈ ((cfg0.win 7).blk t).view.set := by
  have hi0 : (i 0).val < 100000 := idx2_lt0 i
  have hi1 : (i 1).val < 512 := idx2_lt1 i
  obtain ⟨t, ht⟩ : ∃ t : Fin cfg0.N, t.val = (i 0).val / 1000 := ⟨⟨(i 0).val / 1000, by show _ < 100; omega⟩, rfl⟩
  refine ⟨t, flush0_7 t, ?_⟩
  rw [mem_blk_obj]
  obtain ⟨-, -, -, -, -, -, -, -, -, -, -, -, -, -, e0, e1⟩ := idx_facts t
  intro a
  match a with
  | ⟨0, _⟩ => show win0_7.index t (0 : Fin 2) * 1000 ≤ (i 0).val ∧ (i 0).val < win0_7.index t (0 : Fin 2) * 1000 + 1000; rw [e0, ht]; omega
  | ⟨1, _⟩ => show win0_7.index t (1 : Fin 2) * 512 ≤ (i 1).val ∧ (i 1).val < win0_7.index t (1 : Fin 2) * 512 + 512; rw [e1]; omega

/-- So window 7's array ends holding `objCols`. -/
theorem final_obj (c : Dev nD) : (dat V c).arrAt 7 cfg0.N = objCols V c :=
  (dat V c).arrAt_eq_of_cover 7 (objCols V c) (fun t _ => flushed_obj V c t) cover_obj

/-- The object result array (window 7) after the stage. -/
theorem obj_array (c : Dev nD) (r : Fin 100000) (j : Fin 512) :
    ((dat V c).arrAt 7 cfg0.N : S100000x512.Idx → EReal) (ix2 r j) = row V c r ⟨640 + j.val, by omega⟩ := by
  rw [final_obj]
  rfl

end Cert.KernelIdeal.Mlp1

end
-- ==== Proof.KernelIdeal.Mlp2Value.lean ====
/-
  What the second dense stage's body computes on one block, entry by entry, over the extended reals: row `p` of
  the stored values is two dense layers applied to row `p` of the input block, the weights read transposed (the
  host hands the body `Wᵀ`), the biases read from their one row.
-/
import proofs.«112442_j455266533448_1_alg».proof.Proof.Gen.KernelIdeal.Skeleton
import proofs.«112442_j455266533448_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Mlp2

open Idealize.ShloMosaic Idealize.ShloMosaic.ValueIdx
open Cert.KernelIdeal.Gen

/-- One dense layer read at an entry: a product into the zero accumulator over a one-axis contraction (`hl0 … hr1`:
    which coordinates of the operands the dimension numbers read), plus the one bias row, clamped below at the zero
    word, is `Spec.dense` of row `p` of the left operand against the right operand read transposed. -/
private theorem dense_at {M K N : ℕ} {φ₁ φ₂ : FTy}
    (d : DotDims (⟨2, ![M, K]⟩ : Shape) ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (y : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (p : Fin M) (j : Fin N) :
    maximumf (addf (matmul d none y w (constant (F := Ideal) ⟨2, ![M, N]⟩ .f32 0x00000000#32)) (broadcastTo ⟨2, ![M, N]⟩ b h))
        (broadcast ⟨2, ![M, N]⟩ (Scalar.ofBits (F := Ideal) .f32 0x00000000#32)) (ix2 p j)
      = Spec.dense (fun l : Fin K => y (ix2 p l)) (fun (j : Fin N) (l : Fin K) => w (ix2 l j)) (fun j : Fin N => b (ix2 (0 : Fin 1) j)) j := by
  show max (matmul d none y w (constant (F := Ideal) ⟨2, ![M, N]⟩ .f32 0x00000000#32) (ix2 p j) + broadcastTo ⟨2, ![M, N]⟩ b h (ix2 p j)) Spec.zeroWord = _
  simp only [matmul]
  rw [Ideal.matmul_constant_zero_apply, broadcastTo_1b_ab_apply, ← Equiv.sum_comp (ValueIdx.contrEquiv1 d K hr hs).symm]
  unfold Spec.dense
  refine congrArg (fun t => max (t + b (ix2 (0 : Fin 1) j)) Spec.zeroWord) (Finset.sum_congr rfl fun k _ => ?_)
  have hk := ValueIdx.contrEquiv1_symm_val d K hr hs k
  have el : d.lhsIdx (ix2 p j) ((ValueIdx.contrEquiv1 d K hr hs).symm k) = ix2 p k := funext fun a => Fin.ext (by
    match a with
    | ⟨0, _⟩ => exact hl0 _ _
    | ⟨1, _⟩ => exact (hl1 _ _).trans hk)
  have er : d.rhsIdx (ix2 p j) ((ValueIdx.contrEquiv1 d K hr hs).symm k) = ix2 k j := funext fun a => Fin.ext (by
    match a with
    | ⟨0, _⟩ => exact (hr0 _ _).trans hk
    | ⟨1, _⟩ => exact hr1 _ _)
  rw [el, er]

private theorem lhs_a_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
private theorem lhs_a_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
private theorem rhs_a_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
private theorem rhs_a_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

private theorem lhs_b_0 (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
private theorem lhs_b_1 (i : S1000x128.Idx) (q : dot_S1000x512_S512x128_S1000x128_1_0_0_1_n_n.contr.Idx) :
    (dot_S1000x512_S512x128_S1000x128_1_0_0_1_n_n.lhsIdx i q 1).val = (q ⟨0, by decide⟩).val :=
  dot_S1000x512_S512x128_S1000x128_1_0_0_1_n_n.lhsIdx_val_of_single rfl i q
private theorem rhs_b_0 (i : S1000x128.Idx) (q : dot_S1000x512_S512x128_S1000x128_1_0_0_1_n_n.contr.Idx) :
    (dot_S1000x512_S512x128_S1000x128_1_0_0_1_n_n.rhsIdx i q 0).val = (q ⟨0, by decide⟩).val :=
  dot_S1000x512_S512x128_S1000x128_1_0_0_1_n_n.rhsIdx_val_of_single rfl i q
private theorem rhs_b_1 (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- Entry `(p, j)` of the stored block is `Spec.twoLayers` of row `p` of the input block. -/
theorem layers_at (x : Vec Ideal S1000x512 .bf16) (wa : Vec Ideal S512x512 .bf16) (ba : Vec Ideal S1x512 .f32)
    (wb : Vec Ideal S512x128 .bf16) (bb : Vec Ideal S1x128 .f32) (p : Fin 1000) (j : Fin 128) :
    k1_pay1 (F := Ideal) x wa ba wb bb (ix2 p j) =
      Spec.twoLayers (fun l : Fin 512 => x (ix2 p l)) (fun (k : Fin 512) (l : Fin 512) => wa (ix2 l k)) (fun k : Fin 512 => ba (ix2 (0 : Fin 1) k))
        (fun (j : Fin 128) (k : Fin 512) => wb (ix2 k j)) (fun j : Fin 128 => bb (ix2 (0 : Fin 1) j)) j := by
  unfold k1_pay1
  simp only [shapeCast_self]
  unfold Spec.twoLayers
  refine (dense_at dot_S1000x512_S512x128_S1000x128_1_0_0_1_n_n rfl rfl lhs_b_0 lhs_b_1 rhs_b_0 rhs_b_1 _ wb bb broadcasts_S1x128_S1000x128 p j).trans ?_
  refine congrFun (Spec.dense_congr (fun k => ?_) (fun _ _ => rfl) (fun _ => rfl)) j
  exact dense_at dot_S1000x512_S512x512_S1000x512_1_0_0_1_n_n rfl rfl lhs_a_0 lhs_a_1 rhs_a_0 rhs_a_1 x wa ba broadcasts_S1x512_S1000x512 p k

end Cert.KernelIdeal.Mlp2

end
-- ==== Proof.KernelIdeal.Mlp2Array.lean ====
/-
  From blocks to the array, second dense stage, over the extended reals: point `t` of the grid writes back rows
  `1000 t … 1000 t + 999` of the result array, the 50 points tile the 50000 rows, and row `r` of what is written is
  two dense layers applied to row `r` of the stage's input array, whatever block it falls in.
-/
import proofs.«112442_j455266533448_1_alg».proof.Proof.KernelIdeal.Mlp2Body
import proofs.«112442_j455266533448_1_alg».proof.Proof.KernelIdeal.Mlp2Value

set_option maxRecDepth 16384

noncomputable section

namespace Cert.KernelIdeal.Mlp2

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-- The stage's five input arrays as it finds them, at their literal types. -/
abbrev feats (c : Dev nD) : Vec Ideal S50000x512 .bf16 := V c main_v64
abbrev wA (c : Dev nD) : Vec Ideal S512x512 .bf16 := V c main_v66
abbrev bA (c : Dev nD) : Vec Ideal S1x512 .f32 := V c main_v69
abbrev wB (c : Dev nD) : Vec Ideal S512x128 .bf16 := V c main_v68
abbrev bB (c : Dev nD) : Vec Ideal S1x128 .f32 := V c main_v70

/-- Row `r` of the second layer's clamped output. -/
def row (c : Dev nD) (r : Fin 50000) : Fin 128 → EReal :=
  Spec.twoLayers (fun l : Fin 512 => feats V c (ix2 r l)) (fun (k : Fin 512) (l : Fin 512) => wA V c (ix2 l k)) (fun k : Fin 512 => bA V c (ix2 (0 : Fin 1) k))
    (fun (j : Fin 128) (k : Fin 512) => wB V c (ix2 k j)) (fun j : Fin 128 => bB V c (ix2 (0 : Fin 1) j))

theorem zero_offsets : (![0, 0] : Fin 2 → Nat) = fun _ => 0 := funext fun a => by fin_cases a <;> rfl

/-- The whole result array: entry `(r, j)` is entry `j` of `row r`. -/
def rows (c : Dev nD) : S50000x128.Idx → EReal :=
  fun i => row V c ⟨(i 0).val, idx2_lt0 i⟩ ⟨(i 1).val, idx2_lt1 i⟩

/-- Where each window's block sits at grid point `t`: the row-blocked arrays (the features, the result) at block
    `t` of their rows, the weights and biases at their one block. -/
theorem block_indices : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- One entry of what a point stores, from its blocks: when row `p` of the features block is row `r` of the
    features and the other four blocks are the whole weights and biases, entry `(p, q)` is entry `q` of `row r`. -/
theorem stored_entry (c : Dev nD) (x : Vec Ideal S1000x512 .bf16) (wa : Vec Ideal S512x512 .bf16) (ba : Vec Ideal S1x512 .f32)
    (wb : Vec Ideal S512x128 .bf16) (bb : Vec Ideal S1x128 .f32) (p : Fin 1000) (q : Fin 128) (r : Fin 50000)
    (hx : ∀ l : Fin 512, x (ix2 p l) = feats V c (ix2 r l)) (hwa : wa = wA V c) (hba : ba = bA V c) (hwb : wb = wB V c) (hbb : bb = bB V c) :
    k1_pay1 (F := Ideal) x wa ba wb bb (ix2 p q) = row V c r q := by
  subst hwa hba hwb hbb
  rw [layers_at]
  unfold row Spec.twoLayers
  exact congrFun (congrArg (fun f => Spec.dense (Spec.dense f _ _) _ _) (funext hx)) q

/-- A block of an array read at an entry is the array at the block's place: coordinate `a` of the entry is the block's
    index on that axis times the block's extent, plus the coordinate inside the block. -/
theorem feats_block (c : Dev nD) (t : Fin cfg1.N) (p : Fin 1000) (l : Fin 512) (r : Fin 50000) (hr : r.val = 1000 * t.val + p.val) :
    (blk V c 0 t : Vec Ideal S1000x512 .bf16) (ix2 p l) = feats V c (ix2 r l) := by
  obtain ⟨e0, e1, e2, e3, e4, e5, e6, e7, e8, e9, e10, e11⟩ := block_indices t
  show V c main_v64 (((cfg1.win 0).blk t).view.emb (ix2 p l)) = V c main_v64 (ix2 r l)
  refine congrArg (V c main_v64) (funext fun a => Fin.ext ?_)
  match a with
  | ⟨0, _⟩ => show win1_0.index t (0 : Fin 2) * 1000 + 1 * p.val = r.val; rw [e2, hr]; omega
  | ⟨1, _⟩ => show win1_0.index t (1 : Fin 2) * 512 + 1 * l.val = l.val; rw [e3]; omega

theorem wA_block (c : Dev nD) (t : Fin cfg1.N) : (blk V c 1 t : Vec Ideal S512x512 .bf16) = wA V c := by
  obtain ⟨e0, e1, e2, e3, e4, e5, e6, e7, e8, e9, e10, e11⟩ := block_indices t
  funext y
  show V c main_v66 (((cfg1.win 1).blk t).view.emb y) = V c main_v66 y
  refine congrArg (V c main_v66) (funext fun a => Fin.ext ?_)
  match a with
  | ⟨0, _⟩ => show win1_1.index t (0 : Fin 2) * 512 + 1 * (y 0).val = (y 0).val; rw [e4]; omega
  | ⟨1, _⟩ => show win1_1.index t (1 : Fin 2) * 512 + 1 * (y 1).val = (y 1).val; rw [e5]; omega

theorem bA_block (c : Dev nD) (t : Fin cfg1.N) : (blk V c 2 t : Vec Ideal S1x512 .f32) = bA V c := by
  obtain ⟨e0, e1, e2, e3, e4, e5, e6, e7, e8, e9, e10, e11⟩ := block_indices t
  funext y
  show V c main_v69 (((cfg1.win 2).blk t).view.emb y) = V c main_v69 y
  refine congrArg (V c main_v69) (funext fun a => Fin.ext ?_)
  match a with
  | ⟨0, _⟩ => show win1_2.index t (0 : Fin 2) * 1 + 1 * (y 0).val = (y 0).val; rw [e6]; omega
  | ⟨1, _⟩ => show win1_2.index t (1 : Fin 2) * 512 + 1 * (y 1).val = (y 1).val; rw [e7]; omega

theorem wB_block (c : Dev nD) (t : Fin cfg1.N) : (blk V c 3 t : Vec Ideal S512x128 .bf16) = wB V c := by
  obtain ⟨e0, e1, e2, e3, e4, e5, e6, e7, e8, e9, e10, e11⟩ := block_indices t
  funext y
  show V c main_v68 (((cfg1.win 3).blk t).view.emb y) = V c main_v68 y
  refine congrArg (V c main_v68) (funext fun a => Fin.ext ?_)
  match a with
  | ⟨0, _⟩ => show win1_3.index t (0 : Fin 2) * 512 + 1 * (y 0).val = (y 0).val; rw [e8]; omega
  | ⟨1, _⟩ => show win1_3.index t (1 : Fin 2) * 128 + 1 * (y 1).val = (y 1).val; rw [e9]; omega

theorem bB_block (c : Dev nD) (t : Fin cfg1.N) : (blk V c 4 t : Vec Ideal S1x128 .f32) = bB V c := by
  obtain ⟨e0, e1, e2, e3, e4, e5, e6, e7, e8, e9, e10, e11⟩ := block_indices t
  funext y
  show V c main_v70 (((cfg1.win 4).blk t).view.emb y) = V c main_v70 y
  refine congrArg (V c main_v70) (funext fun a => Fin.ext ?_)
  match a with
  | ⟨0, _⟩ => show win1_4.index t (0 : Fin 2) * 1 + 1 * (y 0).val = (y 0).val; rw [e10]; omega
  | ⟨1, _⟩ => show win1_4.index t (1 : Fin 2) * 128 + 1 * (y 1).val = (y 1).val; rw [e11]; omega

/-- What point `t` writes back is block `t` of `rows`. -/
theorem flushed_eq (c : Dev nD) (t : Fin cfg1.N) :
    (dat V c).flushed 5 t = ((cfg1.win 5).blk t).view.read (Elt Ideal) (rows V c) := by
  show (cfg1.win 5).cut (grid1.coords t) ((dat V c).after 5 t) = _
  rw [after5]
  unfold outN
  rw [View.canon_unit_zero zero_offsets]
  simp only [View.ld_unit_zero (S := S1000x512) zero_offsets, View.ld_unit_zero (S := S512x512) zero_offsets,
    View.ld_unit_zero (S := S1x512) zero_offsets, View.ld_unit_zero (S := S512x128) zero_offsets, View.ld_unit_zero (S := S1x128) zero_offsets]
  obtain ⟨e0, e1, e2, e3, e4, e5, e6, e7, e8, e9, e10, e11⟩ := block_indices t
  have ht : t.val < 50 := lt_of_lt_of_eq t.isLt N_1
  funext y
  have hy0 : (y 0).val < 1000 := (y 0).isLt
  have hy1 : (y 1).val < 128 := (y 1).isLt
  have hxy : (cfg1.win 5).xinj (grid1.coords t) y = ix2 (⟨(y 0).val, hy0⟩ : Fin 1000) (⟨(y 1).val, hy1⟩ : Fin 128) :=
    funext fun a => by
      match a with
      | ⟨0, _⟩ => rfl
      | ⟨1, _⟩ => rfl
  refine (congrArg (k1_pay1 (F := Ideal) (blk V c 0 t) (blk V c 1 t) (blk V c 2 t) (blk V c 3 t) (blk V c 4 t)) hxy).trans ?_
  refine (stored_entry V c (blk V c 0 t) (blk V c 1 t) (blk V c 2 t) (blk V c 3 t) (blk V c 4 t) ⟨(y 0).val, hy0⟩ ⟨(y 1).val, hy1⟩
    ⟨1000 * t.val + (y 0).val, by omega⟩ (fun l => feats_block V c t _ l _ rfl) (wA_block V c t) (bA_block V c t) (wB_block V c t) (bB_block V c t)).trans ?_
  show row V c _ _ = rows V c (((cfg1.win 5).blk t).view.emb y)
  unfold rows
  congr 1 <;> apply Fin.ext
  · show 1000 * t.val + (y 0).val = win1_5.index t (0 : Fin 2) * 1000 + 1 * (y 0).val
    rw [e0]; omega
  · show (y 1).val = win1_5.index t (1 : Fin 2) * 128 + 1 * (y 1).val
    rw [e1]; omega

/-- An entry of the array is in point `t`'s block iff each coordinate is in the block's range on its axis. -/
theorem mem_block (t : Fin cfg1.N) (i : S50000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v71).slice (win1_5.rect t)).set ↔ _
  rw [View.set_slice_whole, Rect.mem_set_unit]
  exact Iff.rfl

/-- The 50 blocks tile the rows: row `r` is in the block of point `r / 1000`, which writes its block back. -/
theorem covered (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  obtain ⟨t, ht⟩ : ∃ t : Fin cfg1.N, t.val = (i 0).val / 1000 :=
    ⟨⟨(i 0).val / 1000, lt_of_lt_of_eq (by omega) N_1.symm⟩, rfl⟩
  obtain ⟨e0, e1, -⟩ := block_indices t
  refine ⟨t, flush1_5 t, ?_⟩
  rw [mem_block]
  intro a
  match a with
  | ⟨0, _⟩ =>
    show win1_5.index t (0 : Fin 2) * 1000 ≤ (i 0).val ∧ (i 0).val < win1_5.index t (0 : Fin 2) * 1000 + 1000
    rw [e0, ht]; omega
  | ⟨1, _⟩ =>
    show win1_5.index t (1 : Fin 2) * 128 ≤ (i 1).val ∧ (i 1).val < win1_5.index t (1 : Fin 2) * 128 + 128
    rw [e1]; omega

/-- The result array (window 5) after the stage. -/
theorem result_array (c : Dev nD) (r : Fin 50000) (j : Fin 128) :
    ((dat V c).arrAt 5 cfg1.N : S50000x128.Idx → EReal) (ix2 r j) = row V c r j := by
  exact congrFun ((dat V c).arrAt_eq_of_cover 5 (rows V c) (fun t _ => flushed_eq V c t) covered) (ix2 r j)

end Cert.KernelIdeal.Mlp2

end
-- ==== Proof.RefValue.lean ====
/-
  The reference, stage by stage over the extended reals: the activations after its second layer are, row by row,
  two dense layers applied to the row of gathered and concatenated features; its first result is, row by row, two
  dense layers applied to the row of pooled features; the three column ranges it cuts out of the activations are
  read at shifted columns.
-/
import proofs.«112442_j455266533448_1_alg».proof.Proof.Gen.ReferenceIdeal.Read
import proofs.«112442_j455266533448_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- Entry `(r, k)` of the activations after the first layer of the first stage: one dense layer on row `r`. -/
private theorem hidden_at (x0 : (⟨S50000x128, .f32⟩ : BufTy).Contents (Elt Ideal)) (x1 : (⟨S100000x128, .f32⟩ : BufTy).Contents (Elt Ideal)) (x2 : (⟨S100000x2, .i32⟩ : BufTy).Contents (Elt Ideal)) (x3 : (⟨S512x384, .f32⟩ : BufTy).Contents (Elt Ideal)) (x4 : (⟨S512, .f32⟩ : BufTy).Contents (Elt Ideal)) (r : Fin 100000) (k : Fin 512) :
    val_main_v24 (F := Ideal) x0 x1 x2 x3 x4 (ix2 r k) =
      Spec.dense (fun l : Fin 384 => val_main_v18 (F := Ideal) x0 x1 x2 (ix2 r l)) (fun (k : Fin 512) (l : Fin 384) => x3 (ix2 k l)) (fun k : Fin 512 => x4 (ix1 k)) k := by
  rw [val_main_v24_apply, val_main_v23_apply, val_main_v20_apply, val_main_v22_apply, val_main_v21_apply, val_main_call0_v0_apply, val_main_call0_cst_apply]
  have e1 : ∀ l : Fin 384, lidx_main_v20 (ix2 r k) l = ix2 r l := fun l => funext fun a => Fin.ext (by
    match a with
    | ⟨0, _⟩ => rfl
    | ⟨1, _⟩ => rfl)
  have e2 : ∀ l : Fin 384, idx_main_v19 (ridx_main_v20 (ix2 r k) l) = ix2 k l := fun l => funext fun a => Fin.ext (by
    match a with
    | ⟨0, _⟩ => rfl
    | ⟨1, _⟩ => rfl)
  have e3 : idx_main_v21 (idx_main_v22 (ix2 r k)) = ix1 k := funext fun a => Fin.ext (by
    match a with
    | ⟨0, _⟩ => rfl)
  simp only [val_main_v19_apply, e1, e2, e3]
  rfl

/-- Entry `(r, j)` of the activations after the second layer of the first stage. -/
theorem acts_at (x0 : (⟨S50000x128, .f32⟩ : BufTy).Contents (Elt Ideal)) (x1 : (⟨S100000x128, .f32⟩ : BufTy).Contents (Elt Ideal)) (x2 : (⟨S100000x2, .i32⟩ : BufTy).Contents (Elt Ideal)) (x3 : (⟨S512x384, .f32⟩ : BufTy).Contents (Elt Ideal)) (x4 : (⟨S512, .f32⟩ : BufTy).Contents (Elt Ideal)) (x5 : (⟨S1152x512, .f32⟩ : BufTy).Contents (Elt Ideal)) (x6 : (⟨S1152, .f32⟩ : BufTy).Contents (Elt Ideal)) (r : Fin 100000) (j : Fin 1152) :
    val_main_v30 (F := Ideal) x0 x1 x2 x3 x4 x5 x6 (ix2 r j) =
      Spec.twoLayers (fun l : Fin 384 => val_main_v18 (F := Ideal) x0 x1 x2 (ix2 r l)) (fun (k : Fin 512) (l : Fin 384) => x3 (ix2 k l)) (fun k : Fin 512 => x4 (ix1 k))
        (fun (j : Fin 1152) (k : Fin 512) => x5 (ix2 j k)) (fun j : Fin 1152 => x6 (ix1 j)) j := by
  rw [val_main_v30_apply, val_main_v29_apply, val_main_v26_apply, val_main_v28_apply, val_main_v27_apply, val_main_call1_v0_apply, val_main_call1_cst_apply]
  have e1 : ∀ k : Fin 512, lidx_main_v26 (ix2 r j) k = ix2 r k := fun k => funext fun a => Fin.ext (by
    match a with
    | ⟨0, _⟩ => rfl
    | ⟨1, _⟩ => rfl)
  have e2 : ∀ k : Fin 512, idx_main_v25 (ridx_main_v26 (ix2 r j) k) = ix2 j k := fun k => funext fun a => Fin.ext (by
    match a with
    | ⟨0, _⟩ => rfl
    | ⟨1, _⟩ => rfl)
  have e3 : idx_main_v27 (idx_main_v28 (ix2 r j)) = ix1 j := funext fun a => Fin.ext (by
    match a with
    | ⟨0, _⟩ => rfl)
  simp only [val_main_v25_apply, e1, e2, e3, hidden_at]
  rfl

/-- The subject columns `0 … 511`. -/
theorem subj_at (x0 : (⟨S50000x128, .f32⟩ : BufTy).Contents (Elt Ideal)) (x1 : (⟨S100000x128, .f32⟩ : BufTy).Contents (Elt Ideal)) (x2 : (⟨S100000x2, .i32⟩ : BufTy).Contents (Elt Ideal)) (x3 : (⟨S512x384, .f32⟩ : BufTy).Contents (Elt Ideal)) (x4 : (⟨S512, .f32⟩ : BufTy).Contents (Elt Ideal)) (x5 : (⟨S1152x512, .f32⟩ : BufTy).Contents (Elt Ideal)) (x6 : (⟨S1152, .f32⟩ : BufTy).Contents (Elt Ideal)) (r : Fin 100000) (j : Fin 512) :
    val_main_v31 (F := Ideal) x0 x1 x2 x3 x4 x5 x6 (ix2 r j) = val_main_v30 (F := Ideal) x0 x1 x2 x3 x4 x5 x6 (ix2 r ⟨j.val, by omega⟩) := by
  rw [val_main_v31_apply]
  refine congrArg _ (funext fun a => Fin.ext ?_)
  match a with
  | ⟨0, _⟩ => rfl
  | ⟨1, _⟩ => rfl

/-- The predicate columns `512 … 639`. -/
theorem pred_at (x0 : (⟨S50000x128, .f32⟩ : BufTy).Contents (Elt Ideal)) (x1 : (⟨S100000x128, .f32⟩ : BufTy).Contents (Elt Ideal)) (x2 : (⟨S100000x2, .i32⟩ : BufTy).Contents (Elt Ideal)) (x3 : (⟨S512x384, .f32⟩ : BufTy).Contents (Elt Ideal)) (x4 : (⟨S512, .f32⟩ : BufTy).Contents (Elt Ideal)) (x5 : (⟨S1152x512, .f32⟩ : BufTy).Contents (Elt Ideal)) (x6 : (⟨S1152, .f32⟩ : BufTy).Contents (Elt Ideal)) (r : Fin 100000) (j : Fin 128) :
    val_main_v32 (F := Ideal) x0 x1 x2 x3 x4 x5 x6 (ix2 r j) = val_main_v30 (F := Ideal) x0 x1 x2 x3 x4 x5 x6 (ix2 r ⟨512 + j.val, by omega⟩) := by
  rw [val_main_v32_apply]
  refine congrArg _ (funext fun a => Fin.ext ?_)
  match a with
  | ⟨0, _⟩ => rfl
  | ⟨1, _⟩ => rfl

/-- The object columns `640 … 1151`. -/
theorem obj_at (x0 : (⟨S50000x128, .f32⟩ : BufTy).Contents (Elt Ideal)) (x1 : (⟨S100000x128, .f32⟩ : BufTy).Contents (Elt Ideal)) (x2 : (⟨S100000x2, .i32⟩ : BufTy).Contents (Elt Ideal)) (x3 : (⟨S512x384, .f32⟩ : BufTy).Contents (Elt Ideal)) (x4 : (⟨S512, .f32⟩ : BufTy).Contents (Elt Ideal)) (x5 : (⟨S1152x512, .f32⟩ : BufTy).Contents (Elt Ideal)) (x6 : (⟨S1152, .f32⟩ : BufTy).Contents (Elt Ideal)) (r : Fin 100000) (j : Fin 512) :
    val_main_v33 (F := Ideal) x0 x1 x2 x3 x4 x5 x6 (ix2 r j) = val_main_v30 (F := Ideal) x0 x1 x2 x3 x4 x5 x6 (ix2 r ⟨640 + j.val, by omega⟩) := by
  rw [val_main_v33_apply]
  refine congrArg _ (funext fun a => Fin.ext ?_)
  match a with
  | ⟨0, _⟩ => rfl
  | ⟨1, _⟩ => rfl

/-- Entry `(r, k)` of the activations after the first layer of the second stage: one dense layer on row `r`. -/
private theorem hidden2_at (x0 : (⟨S50000x128, .f32⟩ : BufTy).Contents (Elt Ideal)) (x1 : (⟨S100000x128, .f32⟩ : BufTy).Contents (Elt Ideal)) (x2 : (⟨S100000x2, .i32⟩ : BufTy).Contents (Elt Ideal)) (x3 : (⟨S512x384, .f32⟩ : BufTy).Contents (Elt Ideal)) (x4 : (⟨S512, .f32⟩ : BufTy).Contents (Elt Ideal)) (x5 : (⟨S1152x512, .f32⟩ : BufTy).Contents (Elt Ideal)) (x6 : (⟨S1152, .f32⟩ : BufTy).Contents (Elt Ideal)) (x7 : (⟨S512x512, .f32⟩ : BufTy).Contents (Elt Ideal)) (x8 : (⟨S512, .f32⟩ : BufTy).Contents (Elt Ideal)) (r : Fin 50000) (k : Fin 512) :
    val_main_v76 (F := Ideal) x0 x1 x2 x3 x4 x5 x6 x7 x8 (ix2 r k) =
      Spec.dense (fun l : Fin 512 => val_main_v70 (F := Ideal) x0 x1 x2 x3 x4 x5 x6 (ix2 r l)) (fun (k : Fin 512) (l : Fin 512) => x7 (ix2 k l)) (fun k : Fin 512 => x8 (ix1 k)) k := by
  rw [val_main_v76_apply, val_main_v75_apply, val_main_v72_apply, val_main_v74_apply, val_main_v73_apply, val_main_call2_v0_apply, val_main_call2_cst_apply]
  have e1 : ∀ l : Fin 512, lidx_main_v72 (ix2 r k) l = ix2 r l := fun l => funext fun a => Fin.ext (by
    match a with
    | ⟨0, _⟩ => rfl
    | ⟨1, _⟩ => rfl)
  have e2 : ∀ l : Fin 512, idx_main_v71 (ridx_main_v72 (ix2 r k) l) = ix2 k l := fun l => funext fun a => Fin.ext (by
    match a with
    | ⟨0, _⟩ => rfl
    | ⟨1, _⟩ => rfl)
  have e3 : idx_main_v73 (idx_main_v74 (ix2 r k)) = ix1 k := funext fun a => Fin.ext (by
    match a with
    | ⟨0, _⟩ => rfl)
  simp only [val_main_v71_apply, e1, e2, e3]
  rfl

/-- Entry `(r, j)` of the first result: two dense layers on row `r` of the pooled features. -/
theorem result_at (x0 : (⟨S50000x128, .f32⟩ : BufTy).Contents (Elt Ideal)) (x1 : (⟨S100000x128, .f32⟩ : BufTy).Contents (Elt Ideal)) (x2 : (⟨S100000x2, .i32⟩ : BufTy).Contents (Elt Ideal)) (x3 : (⟨S512x384, .f32⟩ : BufTy).Contents (Elt Ideal)) (x4 : (⟨S512, .f32⟩ : BufTy).Contents (Elt Ideal)) (x5 : (⟨S1152x512, .f32⟩ : BufTy).Contents (Elt Ideal)) (x6 : (⟨S1152, .f32⟩ : BufTy).Contents (Elt Ideal)) (x7 : (⟨S512x512, .f32⟩ : BufTy).Contents (Elt Ideal)) (x8 : (⟨S512, .f32⟩ : BufTy).Contents (Elt Ideal)) (x9 : (⟨S128x512, .f32⟩ : BufTy).Contents (Elt Ideal)) (x10 : (⟨S128, .f32⟩ : BufTy).Contents (Elt Ideal)) (r : Fin 50000) (j : Fin 128) :
    val_main_v82 (F := Ideal) x0 x1 x2 x3 x4 x5 x6 x7 x8 x9 x10 (ix2 r j) =
      Spec.twoLayers (fun l : Fin 512 => val_main_v70 (F := Ideal) x0 x1 x2 x3 x4 x5 x6 (ix2 r l)) (fun (k : Fin 512) (l : Fin 512) => x7 (ix2 k l)) (fun k : Fin 512 => x8 (ix1 k))
        (fun (j : Fin 128) (k : Fin 512) => x9 (ix2 j k)) (fun j : Fin 128 => x10 (ix1 j)) j := by
  rw [val_main_v82_apply, val_main_v81_apply, val_main_v78_apply, val_main_v80_apply, val_main_v79_apply, val_main_call3_v0_apply, val_main_call3_cst_apply]
  have e1 : ∀ k : Fin 512, lidx_main_v78 (ix2 r j) k = ix2 r k := fun k => funext fun a => Fin.ext (by
    match a with
    | ⟨0, _⟩ => rfl
    | ⟨1, _⟩ => rfl)
  have e2 : ∀ k : Fin 512, idx_main_v77 (ridx_main_v78 (ix2 r j) k) = ix2 j k := fun k => funext fun a => Fin.ext (by
    match a with
    | ⟨0, _⟩ => rfl
    | ⟨1, _⟩ => rfl)
  have e3 : idx_main_v79 (idx_main_v80 (ix2 r j)) = ix1 j := funext fun a => Fin.ext (by
    match a with
    | ⟨0, _⟩ => rfl)
  simp only [val_main_v77_apply, e1, e2, e3, hidden2_at]
  rfl

end Cert.ReferenceIdeal.RefValue

end
-- ==== Proof.Bridge.lean ====
/-
  The two programs compute the same two results, over the extended reals.
  Row by row each dense stage of the kernel is two dense layers of its input row (blocks to arrays), and so is each of
  the reference's; the inputs agree: the first stage's features are the reference's joined rows, the weights its
  arguments read transposed twice over (the host transposes, the product contracts the other way), the biases its
  arguments; the second stage's features are the pooling of the first stage's subject and object outputs, which are
  the reference's two column ranges, pooled by the same operations. Narrowing a float to bf16 changes nothing here.
-/
import proofs.«112442_j455266533448_1_alg».proof.Proof.KernelIdeal.HostIn
import proofs.«112442_j455266533448_1_alg».proof.Proof.KernelIdeal.Mlp1Array
import proofs.«112442_j455266533448_1_alg».proof.Proof.KernelIdeal.Mlp2Array
import proofs.«112442_j455266533448_1_alg».proof.Proof.RefValue

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Whole
open Cert.ReferenceIdeal.Read (val_main_v18 val_main_v30 val_main_v31 val_main_v32 val_main_v33 val_main_v70 val_main_v82)

variable (m : (ℓ : Loc nD τ sig) → Buf (Elt Ideal) ℓ) (ρ : Dev nD → PrngReg)

/-- Two dense layers depend only on the entries of their five operands. -/
theorem twoLayers_congr {K H N : ℕ} {x x' : Fin K → EReal} {Wa Wa' : Fin H → Fin K → EReal} {ba ba' : Fin H → EReal}
    {Wb Wb' : Fin N → Fin H → EReal} {bb bb' : Fin N → EReal}
    (hx : ∀ l, x l = x' l) (hWa : ∀ k l, Wa k l = Wa' k l) (hba : ∀ k, ba k = ba' k)
    (hWb : ∀ j k, Wb j k = Wb' j k) (hbb : ∀ j, bb j = bb' j) :
    Spec.twoLayers x Wa ba Wb bb = Spec.twoLayers x' Wa' ba' Wb' bb' := by
  unfold Spec.twoLayers
  rw [Spec.dense_congr hx hWa hba]
  exact Spec.dense_congr (fun _ => rfl) hWb hbb

/-! ## The kernel's arguments, at the types the reference's stages take them -/

abbrev a0 (c : Dev nD) : (⟨Cert.ReferenceIdeal.S50000x128, .f32⟩ : BufTy).Contents (Elt Ideal) := m ((c : Thread nD τ).loc main_arg0)
abbrev a1 (c : Dev nD) : (⟨Cert.ReferenceIdeal.S100000x128, .f32⟩ : BufTy).Contents (Elt Ideal) := m ((c : Thread nD τ).loc main_arg1)
abbrev a2 (c : Dev nD) : (⟨Cert.ReferenceIdeal.S100000x2, .i32⟩ : BufTy).Contents (Elt Ideal) := m ((c : Thread nD τ).loc main_arg2)
abbrev a3 (c : Dev nD) : (⟨Cert.ReferenceIdeal.S512x384, .f32⟩ : BufTy).Contents (Elt Ideal) := m ((c : Thread nD τ).loc main_arg3)
abbrev a4 (c : Dev nD) : (⟨Cert.ReferenceIdeal.S512, .f32⟩ : BufTy).Contents (Elt Ideal) := m ((c : Thread nD τ).loc main_arg4)
abbrev a5 (c : Dev nD) : (⟨Cert.ReferenceIdeal.S1152x512, .f32⟩ : BufTy).Contents (Elt Ideal) := m ((c : Thread nD τ).loc main_arg5)
abbrev a6 (c : Dev nD) : (⟨Cert.ReferenceIdeal.S1152, .f32⟩ : BufTy).Contents (Elt Ideal) := m ((c : Thread nD τ).loc main_arg6)
abbrev a7 (c : Dev nD) : (⟨Cert.ReferenceIdeal.S512x512, .f32⟩ : BufTy).Contents (Elt Ideal) := m ((c : Thread nD τ).loc main_arg7)
abbrev a8 (c : Dev nD) : (⟨Cert.ReferenceIdeal.S512, .f32⟩ : BufTy).Contents (Elt Ideal) := m ((c : Thread nD τ).loc main_arg8)
abbrev a9 (c : Dev nD) : (⟨Cert.ReferenceIdeal.S128x512, .f32⟩ : BufTy).Contents (Elt Ideal) := m ((c : Thread nD τ).loc main_arg9)
abbrev a10 (c : Dev nD) : (⟨Cert.ReferenceIdeal.S128, .f32⟩ : BufTy).Contents (Elt Ideal) := m ((c : Thread nD τ).loc main_arg10)

/-! ## A weight read transposed, a bias read from its one row -/

theorem transposed_at {A B : ℕ} (w : (⟨2, ![A, B]⟩ : Shape).Idx → EReal) (h : (⟨2, ![A, B]⟩ : Shape).Transposes [1, 0] ⟨2, ![B, A]⟩)
    (hb : FTy.bits .bf16 < FTy.bits .f32) (l : Fin B) (k : Fin A) :
    transpose (⟨2, ![B, A]⟩ : Shape) [1, 0] (truncf (F := Ideal) (φ := .f32) .bf16 w hb) h (ix2 l k) = w (ix2 k l) :=
  transpose_apply [1, 0] _ h (ix2 l k) (ix2 k l) (fun b => match b with
    | ⟨0, _⟩ => rfl
    | ⟨1, _⟩ => rfl)

theorem oneRow_at {N : ℕ} (b : (⟨1, ![N]⟩ : Shape).Idx → EReal) (h : (⟨1, ![N]⟩ : Shape).ShapeCasts ⟨2, ![1, N]⟩) (k : Fin N) :
    shapeCast (⟨2, ![1, N]⟩ : Shape) b h (ix2 (0 : Fin 1) k) = b (ix1 k) :=
  shapeCast_apply b h (ix2 (0 : Fin 1) k) (ix1 k) (by
    rw [Shape.rowMajor_val_one, Shape.rowMajor_val_two]
    show k.val = 0 * N + k.val
    omega)

/-! ## The first stage, row by row, over the arguments -/

theorem row1_eq (c : Dev nD) (r : Fin 100000) :
    Mlp1.row (V1 m ρ) c r = Spec.twoLayers (fun l : Fin 384 => val_main_v18 (F := Ideal) (a0 m c) (a1 m c) (a2 m c) (ix2 r l))
      (fun (k : Fin 512) (l : Fin 384) => a3 m c (ix2 k l)) (fun k : Fin 512 => a4 m c (ix1 k))
      (fun (j : Fin 1152) (k : Fin 512) => a5 m c (ix2 j k)) (fun j : Fin 1152 => a6 m c (ix1 j)) := by
  unfold Mlp1.row
  refine twoLayers_congr (fun l => ?_) (fun k l => ?_) (fun k => ?_) (fun j k => ?_) (fun j => ?_)
  · exact congrFun (HostIn.feats_eq m ρ c) (ix2 r l)
  · exact (congrFun (HostIn.wA_eq m ρ c) (ix2 l k)).trans (transposed_at (a3 m c) _ _ l k)
  · exact (congrFun (HostIn.bA_eq m ρ c) (ix2 (0 : Fin 1) k)).trans (oneRow_at (a4 m c) _ k)
  · exact (congrFun (HostIn.wB_eq m ρ c) (ix2 k j)).trans (transposed_at (a5 m c) _ _ k j)
  · exact (congrFun (HostIn.bB_eq m ρ c) (ix2 (0 : Fin 1) j)).trans (oneRow_at (a6 m c) _ j)

/-- Row `r` of the kernel's first stage is row `r` of the reference's second-layer activations. -/
theorem row1_ref (c : Dev nD) (r : Fin 100000) (j : Fin 1152) :
    Mlp1.row (V1 m ρ) c r j = val_main_v30 (F := Ideal) (a0 m c) (a1 m c) (a2 m c) (a3 m c) (a4 m c) (a5 m c) (a6 m c) (ix2 r j) := by
  rw [row1_eq, Cert.ReferenceIdeal.RefValue.acts_at]

/-- The subject output of the first stage is the reference's subject columns. -/
theorem subj_eq (c : Dev nD) : W2 m ρ c (Proc.devRef .tc main_v26_0)
    = val_main_v31 (F := Ideal) (a0 m c) (a1 m c) (a2 m c) (a3 m c) (a4 m c) (a5 m c) (a6 m c) := by
  rw [W2_arr m ρ c 5]
  funext i
  obtain ⟨r, j, rfl⟩ : ∃ (r : Fin 100000) (j : Fin 512), i = ix2 r j := ⟨i 0, i 1, eq_ix2 i⟩
  rw [Cert.ReferenceIdeal.RefValue.subj_at, ← row1_ref]
  exact Mlp1.subj_array (V1 m ρ) c r j

/-- The predicate output of the first stage is the reference's predicate columns. -/
theorem pred_eq (c : Dev nD) : (Mlp1.dat (V1 m ρ) c).arrAt 6 cfg0.N
    = val_main_v32 (F := Ideal) (a0 m c) (a1 m c) (a2 m c) (a3 m c) (a4 m c) (a5 m c) (a6 m c) := by
  funext i
  obtain ⟨r, j, rfl⟩ : ∃ (r : Fin 100000) (j : Fin 128), i = ix2 r j := ⟨i 0, i 1, eq_ix2 i⟩
  rw [Cert.ReferenceIdeal.RefValue.pred_at, ← row1_ref]
  exact Mlp1.pred_array (V1 m ρ) c r j

/-- The object output of the first stage is the reference's object columns. -/
theorem obj_eq (c : Dev nD) : W2 m ρ c (Proc.devRef .tc main_v26_2)
    = val_main_v33 (F := Ideal) (a0 m c) (a1 m c) (a2 m c) (a3 m c) (a4 m c) (a5 m c) (a6 m c) := by
  rw [W2_arr m ρ c 7]
  funext i
  obtain ⟨r, j, rfl⟩ : ∃ (r : Fin 100000) (j : Fin 512), i = ix2 r j := ⟨i 0, i 1, eq_ix2 i⟩
  rw [Cert.ReferenceIdeal.RefValue.obj_at, ← row1_ref]
  exact Mlp1.obj_array (V1 m ρ) c r j

/-! ## The second stage, row by row, over the arguments -/

/-- The second stage's features are the reference's pooled features (narrowed). -/
theorem pooled_ref (c : Dev nD) (r : Fin 50000) (l : Fin 512) :
    Mlp2.feats (V3 m ρ) c (ix2 r l) = val_main_v70 (F := Ideal) (a0 m c) (a1 m c) (a2 m c) (a3 m c) (a4 m c) (a5 m c) (a6 m c) (ix2 r l) := by
  have h : V3 m ρ c main_v64 (ix2 r l)
      = HostIn.pool (F := Ideal) (a2 m c) (W2 m ρ c (Proc.devRef .tc main_v26_0)) (W2 m ρ c (Proc.devRef .tc main_v26_2)) (ix2 r l) :=
    (congrFun (HostIn.pooled_eq m ρ c) (ix2 r l)).trans (truncf_apply _ _ _)
  rw [HostIn.ref_pool, ← subj_eq m ρ c, ← obj_eq m ρ c]
  exact h

theorem row2_eq (c : Dev nD) (r : Fin 50000) :
    Mlp2.row (V3 m ρ) c r = Spec.twoLayers (fun l : Fin 512 => val_main_v70 (F := Ideal) (a0 m c) (a1 m c) (a2 m c) (a3 m c) (a4 m c) (a5 m c) (a6 m c) (ix2 r l))
      (fun (k : Fin 512) (l : Fin 512) => a7 m c (ix2 k l)) (fun k : Fin 512 => a8 m c (ix1 k))
      (fun (j : Fin 128) (k : Fin 512) => a9 m c (ix2 j k)) (fun j : Fin 128 => a10 m c (ix1 j)) := by
  unfold Mlp2.row
  refine twoLayers_congr (fun l => ?_) (fun k l => ?_) (fun k => ?_) (fun j k => ?_) (fun j => ?_)
  · exact pooled_ref m ρ c r l
  · exact (congrFun (HostIn.wA2_eq m ρ c) (ix2 l k)).trans (transposed_at (a7 m c) _ _ l k)
  · exact (congrFun (HostIn.bA2_eq m ρ c) (ix2 (0 : Fin 1) k)).trans (oneRow_at (a8 m c) _ k)
  · exact (congrFun (HostIn.wB2_eq m ρ c) (ix2 k j)).trans (transposed_at (a9 m c) _ _ k j)
  · exact (congrFun (HostIn.bB2_eq m ρ c) (ix2 (0 : Fin 1) j)).trans (oneRow_at (a10 m c) _ j)

/-- The second stage's output is the reference's first result. -/
theorem result_eq (c : Dev nD) : (Mlp2.dat (V3 m ρ) c).arrAt 5 cfg1.N
    = val_main_v82 (F := Ideal) (a0 m c) (a1 m c) (a2 m c) (a3 m c) (a4 m c) (a5 m c) (a6 m c) (a7 m c) (a8 m c) (a9 m c) (a10 m c) := by
  funext i
  obtain ⟨r, j, rfl⟩ : ∃ (r : Fin 50000) (j : Fin 128), i = ix2 r j := ⟨i 0, i 1, eq_ix2 i⟩
  rw [Cert.ReferenceIdeal.RefValue.result_at, ← row2_eq]
  exact Mlp2.result_array (V3 m ρ) c r j

/-! ## The two results after the whole run -/

theorem first_result (c : Dev nD) : W4 m ρ c (Proc.devRef .tc main_v71)
    = val_main_v82 (F := Ideal) (a0 m c) (a1 m c) (a2 m c) (a3 m c) (a4 m c) (a5 m c) (a6 m c) (a7 m c) (a8 m c) (a9 m c) (a10 m c) :=
  (W4_main_v71 m ρ c).trans (result_eq m ρ c)

theorem second_result (c : Dev nD) : W4 m ρ c (Proc.devRef .tc main_v26_1)
    = val_main_v32 (F := Ideal) (a0 m c) (a1 m c) (a2 m c) (a3 m c) (a4 m c) (a5 m c) (a6 m c) :=
  (W4_main_v26_1 m ρ c).trans (pred_eq m ρ c)

end Cert.Bridge

end
-- ==== Proof.lean ====
/-
  The certificate. Both programs run the same pipeline: gather the subject and object rows of each edge, join them
  with the predicate features, a two-layer dense stage on every edge, scatter-add the subject and object outputs over
  the objects and divide by the clamped counts, a two-layer dense stage on every object. The kernel runs the two
  dense stages as grids over blocks of 1000 rows with bf16 operands; over the extended reals narrowing is the
  identity and a matrix product is the same sum whatever the blocking, so row by row both compute the same numbers.
  The frames: every execution of each program terminates without a fault and leaves the arguments as launched
  (the kernel's two programs by the run through their four segments, the reference by its run read back).
-/
import proofs.«112442_j455266533448_1_alg».proof.Defs
import proofs.«112442_j455266533448_1_alg».proof.Proof.Gen.Kernel
import proofs.«112442_j455266533448_1_alg».proof.Proof.Gen.KernelIdeal
import proofs.«112442_j455266533448_1_alg».proof.Proof.Gen.ReferenceIdeal
import proofs.«112442_j455266533448_1_alg».proof.Proof.Gen.Pre_finite_inputs
import proofs.«112442_j455266533448_1_alg».proof.Proof.Kernel.Whole
import proofs.«112442_j455266533448_1_alg».proof.Proof.KernelIdeal.Whole
import proofs.«112442_j455266533448_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Whole.frame (F := Bits) m ρ

theorem frame_kernelIdeal : Cert.frame_KernelIdeal := fun m ρ _ => Cert.KernelIdeal.Whole.frame (F := Ideal) m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

open Cert.KernelIdeal Cert.KernelIdeal.Gen Cert.KernelIdeal.Whole in
/-- The idealized kernel's run with its two results named: the second stage's array and the first stage's predicate
    columns as the run leaves them, the arguments as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v71) = W4 m ρ c (Proc.devRef .tc main_v71)
      ∧ r.2.mem ((c.tc : Thread nD τ).loc main_v26_1) = W4 m ρ c (Proc.devRef .tc main_v26_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v71 (by decide)), h c _ (mem_uc main_v26_1 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_all m ρ)

/-- From memories that agree on the arguments both programs end with the same two results. -/
theorem algebraic : Cert.algebraic_KernelIdeal_ReferenceIdeal := by
  intro m g m' g' _ hagree
  refine ⟨fun c => Cert.KernelIdeal.Whole.W4 m g c (Proc.devRef .tc Cert.KernelIdeal.main_v71),
    fun c => Cert.KernelIdeal.Whole.W4 m g c (Proc.devRef .tc Cert.KernelIdeal.main_v26_1), kernel_run m g, ?_⟩
  refine (θ_run Cert.ReferenceIdeal.defs _ _).mono (fun r h c => ?_) (Cert.ReferenceIdeal.Value.run (F := Ideal) m' g')
  obtain ⟨h0, h1, h2, h3, h4, h5, h6, h7, h8, h9, h10⟩ := hagree c
  refine ⟨(h c).1.trans ?_, (h c).2.1.trans ?_, (h c).2.2⟩
  · rw [Cert.ReferenceIdeal.Read.val_main_v82_eq, h0, h1, h2, h3, h4, h5, h6, h7, h8, h9, h10]
    exact (Cert.Bridge.first_result m g c).symm
  · refine (Cert.ReferenceIdeal.Read.val_main_v32_eq _ _ _ _ _ _ _).trans ?_
    rw [h0, h1, h2, h3, h4, h5, h6]
    exact (Cert.Bridge.second_result m g c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
